-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S128x64 .f32) (main_arg6 : FVec F S128x64 .f32) (main_arg7 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128x128 .f32) (main_arg4 : FVec F S128 .f32) (main_arg5 : FVec F S128x64 .f32) (main_arg6 : FVec F S128x64 .f32) (main_arg7 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S5000x128 : Shape := ⟨2, ![5000, 128]⟩
abbrev S5000x1 : Shape := ⟨2, ![5000, 1]⟩
abbrev S1x64 : Shape := ⟨2, ![1, 64]⟩
abbrev S100000x64 : Shape := ⟨2, ![100000, 64]⟩
abbrev S5000x64 : Shape := ⟨2, ![5000, 64]⟩

abbrev nBuf : Space → Nat
  | .hbm => 50
  | .vmem => 22
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S128x64, .f32⟩
  | .hbm, ⟨7, _⟩ => ⟨S64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S100000x1, .f32⟩
  | .hbm, ⟨32, _⟩ => ⟨S1x128, .f32⟩
  | .hbm, ⟨33, _⟩ => ⟨S100000x128, .f32⟩
  | .hbm, ⟨34, _⟩ => ⟨S_, .i32⟩
  | .hbm, ⟨35, _⟩ => ⟨S1600000, .i32⟩
  | .hbm, ⟨36, _⟩ => ⟨S1600000, .i1⟩
  | .hbm, ⟨37, _⟩ => ⟨S_, .i32⟩
  | .hbm, ⟨38, _⟩ => ⟨S1600000, .i32⟩
  | .hbm, ⟨39, _⟩ => ⟨S1600000, .i32⟩
  | .hbm, ⟨40, _⟩ => ⟨S1600000, .i32⟩
  | .hbm, ⟨41, _⟩ => ⟨S1600000x1, .i32⟩
  | .hbm, ⟨42, _⟩ => ⟨S1600000x128, .f32⟩
  | .hbm, ⟨43, _⟩ => ⟨S_, .f32⟩
  | .hbm, ⟨44, _⟩ => ⟨S100000x128, .f32⟩
  | .hbm, ⟨45, _⟩ => ⟨S1600000x1, .i32⟩
  | .hbm, ⟨46, _⟩ => ⟨S100000x128, .f32⟩
  | .hbm, ⟨47, _⟩ => ⟨S100000x1, .f32⟩
  | .hbm, ⟨48, _⟩ => ⟨S1x64, .f32⟩
  | .hbm, ⟨49, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S5000x128, .f32⟩
  | .local _ .vmem, ⟨5, _⟩ => ⟨S5000x128, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x1, .f32⟩
  | .local _ .vmem, ⟨14, _⟩ => ⟨S5000x1, .f32⟩
  | .local _ .vmem, ⟨15, _⟩ => ⟨S5000x128, .f32⟩
  | .local _ .vmem, ⟨16, _⟩ => ⟨S5000x128, .f32⟩
  | .local _ .vmem, ⟨17, _⟩ => ⟨S128x64, .f32⟩
  | .local _ .vmem, ⟨18, _⟩ => ⟨S128x64, .f32⟩
  | .local _ .vmem, ⟨19, _⟩ => ⟨S1x64, .f32⟩
  | .local _ .vmem, ⟨20, _⟩ => ⟨S5000x64, .f32⟩
  | .local _ .vmem, ⟨21, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_5 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  shapeCasts_S100000_S100000x1 : S100000.ShapeCasts S100000x1
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S64_S1x64 : S64.ShapeCasts S1x64
  inb_S128x64_S128x64_0_0 : ∀ a, (![0, 0] : Fin 2 → Nat) a + S128x64.size a ≤ S128x64.size a
  h_S128x64 : 0 < S128x64.numel
  broadcasts_S5000x1_S5000x64 : S5000x1.Broadcasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .f32 = 32 ∨ (Rect.block (s := S100000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x64.size a ≤ S128x64.size a
  hwx1_4 : ∀ i : grid1.Coords, EltTy.bits .f32 = 32 ∨ (Rect.block (s := S128x64) S128x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S100000x64.size a
  hwx1_6 : ∀ i : grid1.Coords, EltTy.bits .f32 = 32 ∨ (Rect.block (s := S100000x64) S5000x64.size (cc1_transform_6 i) (hinb1_6 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v13) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v20) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v30) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v20) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S128x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v32) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v33) S5000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S100000x64 : Shape := ⟨2, ![100000, 64]⟩
abbrev S1x64 : Shape := ⟨2, ![1, 64]⟩

abbrev nBuf : Space → Nat
  | .hbm => 77
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S128x64, .f32⟩
  | .hbm, ⟨7, _⟩ => ⟨S64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S100000x128, .f32⟩
  | .hbm, ⟨38, _⟩ => ⟨S100000x128, .f32⟩
  | .hbm, ⟨39, _⟩ => ⟨S100000x128, .f32⟩
  | .hbm, ⟨40, _⟩ => ⟨S1x128, .f32⟩
  | .hbm, ⟨41, _⟩ => ⟨S100000x128, .f32⟩
  | .hbm, ⟨42, _⟩ => ⟨S100000x128, .f32⟩
  | .hbm, ⟨43, _⟩ => ⟨S_, .f32⟩
  | .hbm, ⟨44, _⟩ => ⟨S100000x128, .f32⟩
  | .hbm, ⟨45, _⟩ => ⟨S100000x128, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x128, .f32⟩
  | .hbm, ⟨55, _⟩ => ⟨S_, .f32⟩
  | .hbm, ⟨56, _⟩ => ⟨S100000x128, .f32⟩
  | .hbm, ⟨57, _⟩ => ⟨S1600000x1, .i32⟩
  | .hbm, ⟨58, _⟩ => ⟨S100000x128, .f32⟩
  | .hbm, ⟨59, _⟩ => ⟨S_, .f32⟩
  | .hbm, ⟨60, _⟩ => ⟨S1600000, .f32⟩
  | .hbm, ⟨61, _⟩ => ⟨S_, .f32⟩
  | .hbm, ⟨62, _⟩ => ⟨S100000, .f32⟩
  | .hbm, ⟨63, _⟩ => ⟨S1600000x1, .i32⟩
  | .hbm, ⟨64, _⟩ => ⟨S100000, .f32⟩
  | .hbm, ⟨65, _⟩ => ⟨S_, .f32⟩
  | .hbm, ⟨66, _⟩ => ⟨S100000, .f32⟩
  | .hbm, ⟨67, _⟩ => ⟨S100000, .f32⟩
  | .hbm, ⟨68, _⟩ => ⟨S100000x1, .f32⟩
  | .hbm, ⟨69, _⟩ => ⟨S100000x128, .f32⟩
  | .hbm, ⟨70, _⟩ => ⟨S100000x128, .f32⟩
  | .hbm, ⟨71, _⟩ => ⟨S100000x64, .f32⟩
  | .hbm, ⟨72, _⟩ => ⟨S100000x64, .f32⟩
  | .hbm, ⟨73, _⟩ => ⟨S100000x64, .f32⟩
  | .hbm, ⟨74, _⟩ => ⟨S1x64, .f32⟩
  | .hbm, ⟨75, _⟩ => ⟨S100000x64, .f32⟩
  | .hbm, ⟨76, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_c_4 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.KHost.lean ====
/-
  What the kernel program's host operations hand to its two pallas_calls.

  Before the first call @main slices the edge list into its two rows, wraps negative source indices once, gathers the
  features' rows at the sources and adds them up at the targets (`aggOf`), adds up ones at the targets (`cnt`: the
  in-degree), and reshapes the in-degree to a column and the bias to a row. Between the calls it does the same gather
  and scatter on the first call's output, reusing the two rows and the in-degree it already holds. Each array a window
  reads is named here as that function of the launch memory, or of the first call's output array.
-/
import proofs.«160734_j12781822673112_1_alg».proof.Proof.Gen.KernelIdeal.Frame
import Idealize.ShloMosaic.Lib.StableHlo.Run
import Idealize.ShloMosaic.PureOps.Ideal

set_option maxRecDepth 16384

noncomputable section

namespace Cert.KernelIdeal.KHost

open Cert.KernelIdeal Cert.KernelIdeal.Gen Idealize.ShloMosaic Idealize.ShloMosaic.TcCoe Idealize.SL.Sem Idealize.ShloMosaic.StableHlo

/-- Row `0` of the edge list: the edges' sources. -/
def row0 (e : IVec S2x1600000 32) : IVec S1600000 32 :=
  shapeCast S1600000 (extractStridedSlice S1x1600000 ![0, 0] e slices_S2x1600000_S1x1600000_0_0) shapeCasts_S1x1600000_S1600000
/-- Row `1` of the edge list: the edges' targets. -/
def row1 (e : IVec S2x1600000 32) : IVec S1600000 32 :=
  shapeCast S1600000 (extractStridedSlice S1x1600000 ![1, 0] e slices_S2x1600000_S1x1600000_1_0) shapeCasts_S1x1600000_S1600000
/-- The gather's start indices: a negative source counted from the end, as a column. -/
def srcOf (r0 : IVec S1600000 32) : IVec S1600000x1 32 :=
  broadcastInDim S1600000x1 ![0] bcast_S1600000_S1600000x1_0
    (select (cmpi .slt r0 (broadcastInDim S1600000 ![] bcast_S_S1600000 (constantI S_ 32 0#32)))
      (addi r0 (broadcastInDim S1600000 ![] bcast_S_S1600000 (constantI S_ 32 100000#32))) r0)
/-- The scatter's indices: the targets as a column. -/
def dstOf (r1 : IVec S1600000 32) : IVec S1600000x1 32 :=
  broadcastInDim S1600000x1 ![0] bcast_S1600000_S1600000x1_0 r1
/-- The neighbour sums of `h` along edges with sources `r0` and targets `r1`. -/
def aggOf (h : FVec Ideal S100000x128 .f32) (r0 r1 : IVec S1600000 32) : FVec Ideal S100000x128 .f32 :=
  Host.scatterAdd (F := Ideal) scatter_S100000x128_S1600000x1_S1600000x128_1_0_0_1
    (broadcastInDim S100000x128 ![] bcast_S_S100000x128 (constant (F := Ideal) S_ .f32 0x00000000#32)) (dstOf r1)
    (Host.gather gather_S100000x128_S1600000x1_S1600000x128_1_0_n_n_0_1_1128 h (srcOf r0))
/-- The in-degree: ones added up at the targets. -/
def cntOf (r1 : IVec S1600000 32) : FVec Ideal S100000 .f32 :=
  Host.scatterAdd (F := Ideal) scatter_S100000_S1600000x1_S1600000_n_0_0_1
    (broadcastInDim S100000 ![] bcast_S_S100000 (constant (F := Ideal) S_ .f32 0x00000000#32)) (dstOf r1)
    (broadcastInDim S1600000 ![] bcast_S_S1600000 (constant (F := Ideal) S_ .f32 0x3F800000#32))

variable (m : (ℓ : Loc nD τ sig) → Buf (Elt Ideal) ℓ) (ρ : Dev nD → PrngReg)

/-! ## At the first call's entry -/

theorem V1_v1 (c : Dev nD) : (W1 m ρ c (Proc.devRef .tc main_v1) : S1600000.Idx → BitVec 32) = row0 (m ((c : Thread nD τ).loc main_arg1)) := by
  show StableHlo.after hostOps0 (W0 m ρ c) (Proc.devRef .tc main_v1) = _
  after_results
  rfl
theorem V1_v3 (c : Dev nD) : (W1 m ρ c (Proc.devRef .tc main_v3) : S1600000.Idx → BitVec 32) = row1 (m ((c : Thread nD τ).loc main_arg1)) := by
  show StableHlo.after hostOps0 (W0 m ρ c) (Proc.devRef .tc main_v3) = _
  after_results
  rfl
theorem V1_v17 (c : Dev nD) : (W1 m ρ c (Proc.devRef .tc main_v17) : S100000.Idx → EReal) = cntOf (row1 (m ((c : Thread nD τ).loc main_arg1))) := by
  show StableHlo.after hostOps0 (W0 m ρ c) (Proc.devRef .tc main_v17) = _
  after_results
  rfl
theorem V1_v13 (c : Dev nD) : (V1 m ρ c main_v13 : S100000x128.Idx → EReal)
    = aggOf (m ((c : Thread nD τ).loc main_arg0)) (row0 (m ((c : Thread nD τ).loc main_arg1))) (row1 (m ((c : Thread nD τ).loc main_arg1))) := by
  show StableHlo.after hostOps0 (W0 m ρ c) (Proc.devRef .tc main_v13) = _
  after_results
  rfl
theorem V1_v18 (c : Dev nD) : (V1 m ρ c main_v18 : S100000x1.Idx → EReal)
    = shapeCast S100000x1 (cntOf (row1 (m ((c : Thread nD τ).loc main_arg1)))) shapeCasts_S100000_S100000x1 := by
  show StableHlo.after hostOps0 (W0 m ρ c) (Proc.devRef .tc main_v18) = _
  after_results
  rfl
theorem V1_v19 (c : Dev nD) : (V1 m ρ c main_v19 : S1x128.Idx → EReal) = shapeCast S1x128 (m ((c : Thread nD τ).loc main_arg4)) shapeCasts_S128_S1x128 := by
  show StableHlo.after hostOps0 (W0 m ρ c) (Proc.devRef .tc main_v19) = _
  after_results
  rfl
theorem V1_arg0 (c : Dev nD) : V1 m ρ c main_arg0 = m ((c : Thread nD τ).loc main_arg0) := by
  show StableHlo.after hostOps0 (W0 m ρ c) (Proc.devRef .tc main_arg0) = _
  after_results
theorem V1_arg2 (c : Dev nD) : V1 m ρ c main_arg2 = m ((c : Thread nD τ).loc main_arg2) := by
  show StableHlo.after hostOps0 (W0 m ρ c) (Proc.devRef .tc main_arg2) = _
  after_results
theorem V1_arg3 (c : Dev nD) : V1 m ρ c main_arg3 = m ((c : Thread nD τ).loc main_arg3) := by
  show StableHlo.after hostOps0 (W0 m ρ c) (Proc.devRef .tc main_arg3) = _
  after_results

/-! ## Between the calls: what the first call and the first stretch left -/

/-- The first call's output array after its write-backs. -/
theorem W2_v20 (c : Dev nD) : W2 m ρ c (Proc.devRef .tc main_v20) = (dat0 (V1 m ρ) c).arrAt 6 cfg0.N := W2_arr m ρ c 6
/-- The sources' row is no array of the first call's: it stands as the first stretch left it. -/
theorem W2_v1 (c : Dev nD) : (W2 m ρ c (Proc.devRef .tc main_v1) : S1600000.Idx → BitVec 32) = row0 (m ((c : Thread nD τ).loc main_arg1)) :=
  (W2_of_ne m ρ c main_v1 (by decide)).trans (V1_v1 m ρ c)
/-- The targets' row likewise. -/
theorem W2_v3 (c : Dev nD) : (W2 m ρ c (Proc.devRef .tc main_v3) : S1600000.Idx → BitVec 32) = row1 (m ((c : Thread nD τ).loc main_arg1)) :=
  (W2_of_ne m ρ c main_v3 (by decide)).trans (V1_v3 m ρ c)
/-- The in-degree likewise. -/
theorem W2_v17 (c : Dev nD) : (W2 m ρ c (Proc.devRef .tc main_v17) : S100000.Idx → EReal) = cntOf (row1 (m ((c : Thread nD τ).loc main_arg1))) :=
  (W2_of_ne m ρ c main_v17 (by decide)).trans (V1_v17 m ρ c)
theorem W2_arg5 (c : Dev nD) : W2 m ρ c (Proc.devRef .tc main_arg5) = m ((c : Thread nD τ).loc main_arg5) := by
  refine (W2_of_ne m ρ c main_arg5 (by decide)).trans ?_
  show StableHlo.after hostOps0 (W0 m ρ c) (Proc.devRef .tc main_arg5) = _
  after_results
theorem W2_arg6 (c : Dev nD) : W2 m ρ c (Proc.devRef .tc main_arg6) = m ((c : Thread nD τ).loc main_arg6) := by
  refine (W2_of_ne m ρ c main_arg6 (by decide)).trans ?_
  show StableHlo.after hostOps0 (W0 m ρ c) (Proc.devRef .tc main_arg6) = _
  after_results
theorem W2_arg7 (c : Dev nD) : W2 m ρ c (Proc.devRef .tc main_arg7) = m ((c : Thread nD τ).loc main_arg7) := by
  refine (W2_of_ne m ρ c main_arg7 (by decide)).trans ?_
  show StableHlo.after hostOps0 (W0 m ρ c) (Proc.devRef .tc main_arg7) = _
  after_results

/-! ## At the second call's entry -/

theorem V3_v30 (c : Dev nD) : (V3 m ρ c main_v30 : S100000x128.Idx → EReal)
    = aggOf (W2 m ρ c (Proc.devRef .tc main_v20)) (W2 m ρ c (Proc.devRef .tc main_v1)) (W2 m ρ c (Proc.devRef .tc main_v3)) := by
  show StableHlo.after hostOps1 (W2 m ρ c) (Proc.devRef .tc main_v30) = _
  after_results
  rfl
theorem V3_v31 (c : Dev nD) : (V3 m ρ c main_v31 : S100000x1.Idx → EReal)
    = shapeCast S100000x1 (W2 m ρ c (Proc.devRef .tc main_v17)) shapeCasts_S100000_S100000x1 := by
  show StableHlo.after hostOps1 (W2 m ρ c) (Proc.devRef .tc main_v31) = _
  after_results
  rfl
theorem V3_v32 (c : Dev nD) : (V3 m ρ c main_v32 : S1x64.Idx → EReal)
    = shapeCast S1x64 (W2 m ρ c (Proc.devRef .tc main_arg7)) shapeCasts_S64_S1x64 := by
  show StableHlo.after hostOps1 (W2 m ρ c) (Proc.devRef .tc main_v32) = _
  after_results
  rfl
theorem V3_v20 (c : Dev nD) : V3 m ρ c main_v20 = W2 m ρ c (Proc.devRef .tc main_v20) := by
  show StableHlo.after hostOps1 (W2 m ρ c) (Proc.devRef .tc main_v20) = _
  after_results
theorem V3_arg5 (c : Dev nD) : V3 m ρ c main_arg5 = W2 m ρ c (Proc.devRef .tc main_arg5) := by
  show StableHlo.after hostOps1 (W2 m ρ c) (Proc.devRef .tc main_arg5) = _
  after_results
theorem V3_arg6 (c : Dev nD) : V3 m ρ c main_arg6 = W2 m ρ c (Proc.devRef .tc main_arg6) := by
  show StableHlo.after hostOps1 (W2 m ρ c) (Proc.devRef .tc main_arg6) = _
  after_results

end Cert.KernelIdeal.KHost

end
-- ==== Proof.LibERealArith.lean ====
/-
  Extended-real arithmetic on REAL inputs, moved into ℝ.

  At the ideal reading every float is an extended real and every float operation is the exact operation on
  [-∞, +∞]. When every operand is (the coercion of) a real number, each such operation answers the coercion of
  the corresponding real operation; the lemmas below say so, operation by operation, with the extended-real
  form on the LEFT, so that rewriting with them pushes a whole expression under one coercion, where `ring`,
  `field_simp` and the `Finset` algebra of ℝ apply. The float literals the two programs spell are evaluated
  here once, as real numbers.
-/
import Idealize.ShloMosaic.PureOps.Ideal
import Idealize.ShloMosaic.PureOps.Ideal.Laws
import Mathlib.Data.EReal.Basic
import Mathlib.Data.EReal.Operations
import Mathlib.Data.EReal.Inv
import Mathlib.Algebra.BigOperators.Group.Finset.Basic
import Mathlib.Tactic.NormNum
import Mathlib.Tactic.Ring
import Mathlib.Tactic.Linarith

noncomputable section

namespace Cert.Lib.ERealArith

open Idealize.ShloMosaic
open scoped BigOperators

/-! ### Sums, products, differences, maxima of coercions -/

/-- A finite sum of coercions is the coercion of the real sum. -/
theorem sum_coe {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- `sum_coe` over a whole finite type. -/
theorem univ_sum_coe {ι : Type*} [Fintype ι] (f : ι → ℝ) :
    (∑ i, ((f i : ℝ) : EReal)) = ((∑ i, f i : ℝ) : EReal) := sum_coe _ f

/-- A finite sum whose every term is known to be a coercion is the coercion of the real sum. -/
theorem sum_eq_coe {ι : Type*} (s : Finset ι) (g : ι → EReal) (f : ι → ℝ) (h : ∀ i ∈ s, g i = ((f i : ℝ) : EReal)) :
    (∑ i ∈ s, g i) = ((∑ i ∈ s, f i : ℝ) : EReal) := by
  rw [Finset.sum_congr rfl h, sum_coe]

/-- The sum of two coercions. -/
theorem add_coe (a b : ℝ) : (a : EReal) + (b : EReal) = ((a + b : ℝ) : EReal) := (EReal.coe_add a b).symm

/-- The difference of two coercions. -/
theorem sub_coe (a b : ℝ) : (a : EReal) - (b : EReal) = ((a - b : ℝ) : EReal) := (EReal.coe_sub a b).symm

/-- The product of two coercions. -/
theorem mul_coe (a b : ℝ) : (a : EReal) * (b : EReal) = ((a * b : ℝ) : EReal) := (EReal.coe_mul a b).symm

/-- The negative of a coercion. -/
theorem neg_coe (a : ℝ) : -(a : EReal) = ((-a : ℝ) : EReal) := (EReal.coe_neg a).symm

/-- The maximum of two coercions. -/
theorem max_coe (a b : ℝ) : max (a : EReal) (b : EReal) = ((max a b : ℝ) : EReal) := (EReal.coe_strictMono.monotone.map_max (a := a) (b := b)).symm

/-- The minimum of two coercions. -/
theorem min_coe (a b : ℝ) : min (a : EReal) (b : EReal) = ((min a b : ℝ) : EReal) := (EReal.coe_strictMono.monotone.map_min (a := a) (b := b)).symm

/-- The extended zero is the coercion of the real zero. -/
theorem zero_eq_coe : (0 : EReal) = ((0 : ℝ) : EReal) := EReal.coe_zero.symm
/-- The extended one is the coercion of the real one. -/
theorem one_eq_coe : (1 : EReal) = ((1 : ℝ) : EReal) := EReal.coe_one.symm

/-- A coercion is not `+∞`. -/
theorem coe_ne_top' (a : ℝ) : (a : EReal) ≠ ⊤ := EReal.coe_ne_top a
/-- A coercion is not `-∞`. -/
theorem coe_ne_bot' (a : ℝ) : (a : EReal) ≠ ⊥ := EReal.coe_ne_bot a

/-! ### Quotient and the square roots -/

/-- The quotient of two coercions by a nonzero divisor is the coercion of the real quotient. -/
theorem div_coe {b : ℝ} (hb : b ≠ 0) (a : ℝ) : Ideal.div (a : EReal) (b : EReal) = ((a / b : ℝ) : EReal) := by
  rw [Ideal.div_coe hb, ← EReal.coe_mul, mul_one_div]

/-- The reciprocal square root of a positive real. -/
theorem rsqrt_coe {r : ℝ} (hr : 0 < r) : Ideal.rsqrt (r : EReal) = (((Real.sqrt r)⁻¹ : ℝ) : EReal) := by
  rw [Ideal.rsqrt_coe, if_neg (not_lt.mpr hr.le), if_neg hr.ne']

/-- The square root of a nonnegative real. -/
theorem sqrt_coe {r : ℝ} (hr : 0 ≤ r) : Ideal.sqrt (r : EReal) = ((Real.sqrt r : ℝ) : EReal) := by
  rw [Ideal.sqrt_coe, if_neg (not_lt.mpr hr)]

/-- A real square root is nonnegative. -/
theorem sqrt_nonneg' (r : ℝ) : 0 ≤ Real.sqrt r := Real.sqrt_nonneg r

/-- The real square root of a positive real is positive. -/
theorem sqrt_pos' {r : ℝ} (hr : 0 < r) : 0 < Real.sqrt r := Real.sqrt_pos.mpr hr
/-- The real square root of a positive real is nonzero. -/
theorem sqrt_ne_zero'' {r : ℝ} (hr : 0 < r) : Real.sqrt r ≠ 0 := (Real.sqrt_pos.mpr hr).ne'

/-! ### The same, spelled with the float operations at the ideal reading -/

section FloatOpsForms
variable {φ : FTy}

/-- `addf` of two reals. -/
theorem addf_coe (a b : ℝ) : FloatOps.addf (F := Ideal) (φ := φ) ((a : ℝ) : EReal) ((b : ℝ) : EReal) = ((a + b : ℝ) : EReal) :=
  add_coe a b

/-- `subf` of two reals. -/
theorem subf_coe (a b : ℝ) : FloatOps.subf (F := Ideal) (φ := φ) ((a : ℝ) : EReal) ((b : ℝ) : EReal) = ((a - b : ℝ) : EReal) :=
  sub_coe a b

/-- `mulf` of two reals. -/
theorem mulf_coe (a b : ℝ) : FloatOps.mulf (F := Ideal) (φ := φ) ((a : ℝ) : EReal) ((b : ℝ) : EReal) = ((a * b : ℝ) : EReal) :=
  mul_coe a b

/-- `maximumf` of two reals. -/
theorem maximumf_coe (a b : ℝ) :
    FloatOps.maximumf (F := Ideal) (φ := φ) ((a : ℝ) : EReal) ((b : ℝ) : EReal) = ((max a b : ℝ) : EReal) :=
  max_coe a b

/-- `divf` of two reals, the divisor nonzero. -/
theorem divf_coe {b : ℝ} (hb : b ≠ 0) (a : ℝ) :
    FloatOps.divf (F := Ideal) (φ := φ) ((a : ℝ) : EReal) ((b : ℝ) : EReal) = ((a / b : ℝ) : EReal) :=
  div_coe hb a

/-- The host's quotient of two reals, the divisor nonzero. -/
theorem hostDivf_coe {b : ℝ} (hb : b ≠ 0) (a : ℝ) :
    FloatOps.hostDivf (F := Ideal) (φ := φ) ((a : ℝ) : EReal) ((b : ℝ) : EReal) = ((a / b : ℝ) : EReal) :=
  div_coe hb a

/-- The kernel's reciprocal square root of a positive real. -/
theorem rsqrtf_coe {r : ℝ} (hr : 0 < r) :
    FloatOps.rsqrt (F := Ideal) (φ := φ) ((r : ℝ) : EReal) = (((Real.sqrt r)⁻¹ : ℝ) : EReal) := rsqrt_coe hr

/-- The host's reciprocal square root of a positive real. -/
theorem hostRsqrt_coe {r : ℝ} (hr : 0 < r) :
    FloatOps.hostUnary (F := Ideal) (φ := φ) .rsqrt ((r : ℝ) : EReal) = (((Real.sqrt r)⁻¹ : ℝ) : EReal) := rsqrt_coe hr

/-- The kernel's square root of a nonnegative real. -/
theorem sqrtf_coe {r : ℝ} (hr : 0 ≤ r) :
    FloatOps.sqrt (F := Ideal) (φ := φ) ((r : ℝ) : EReal) = ((Real.sqrt r : ℝ) : EReal) := sqrt_coe hr

/-- The host's square root of a nonnegative real. -/
theorem hostSqrt_coe {r : ℝ} (hr : 0 ≤ r) :
    FloatOps.hostUnary (F := Ideal) (φ := φ) .sqrt ((r : ℝ) : EReal) = ((Real.sqrt r : ℝ) : EReal) := sqrt_coe hr

/-- A signed integer read as a float is the coercion of that integer. -/
theorem sitofp_coe {w : Nat} (b : BitVec w) :
    FloatOps.sitofp (F := Ideal) φ b = (((b.toInt : ℤ) : ℝ) : EReal) := rfl

end FloatOpsForms

/-! ### Comparisons of coercions -/

/-- Strict order between coercions is the real one. -/
theorem coe_lt_coe {a b : ℝ} : (a : EReal) < (b : EReal) ↔ a < b := EReal.coe_lt_coe_iff

/-- Order between coercions is the real one. -/
theorem coe_le_coe {a b : ℝ} : (a : EReal) ≤ (b : EReal) ↔ a ≤ b := EReal.coe_le_coe_iff

/-- Equality between coercions is the real one. -/
theorem coe_eq_coe {a b : ℝ} : (a : EReal) = (b : EReal) ↔ a = b := EReal.coe_eq_coe_iff

/-- The float comparison "greater than" of two reals answers the real comparison. -/
theorem cmp_ogt_coe (a b : ℝ) : Ideal.cmp .ogt (a : EReal) (b : EReal) = BitVec.ofBool (decide (b < a)) := by
  simp only [Ideal.cmp, EReal.coe_lt_coe_iff]

/-- "Greater than" holds between reals in that order: the comparison's bit is set. -/
theorem cmp_ogt_coe_of_lt {a b : ℝ} (h : b < a) : Ideal.cmp .ogt (a : EReal) (b : EReal) = 1#1 := by
  rw [cmp_ogt_coe, decide_eq_true h]; rfl

/-- The same through the float operation's name. -/
theorem cmpf_ogt_coe_of_lt {φ : FTy} {a b : ℝ} (h : b < a) :
    FloatOps.cmpf (F := Ideal) (φ := φ) .ogt ((a : ℝ) : EReal) ((b : ℝ) : EReal) = 1#1 :=
  cmp_ogt_coe_of_lt h

/-! ### The float literals of the two programs, as reals -/

/-- `0.0`. -/
theorem ofBits_zero : Ideal.ofBits .f32 0x00000000#32 = ((0 : ℝ) : EReal) := by
  rw [Ideal.ofBits_zero_f32, EReal.coe_zero]

/-- `1.0`. -/
theorem ofBits_one : Ideal.ofBits .f32 0x3F800000#32 = ((1 : ℝ) : EReal) := by
  simp [Ideal.ofBits, Ideal.ieee, -EReal.coe_mul]; norm_num

/-- `100000.0`. -/
theorem ofBits_100000 : Ideal.ofBits .f32 0x47C35000#32 = ((100000 : ℝ) : EReal) := by
  simp [Ideal.ofBits, Ideal.ieee, -EReal.coe_mul]; norm_num

/-- `2000.0`. -/
theorem ofBits_2000 : Ideal.ofBits .f32 0x44FA0000#32 = ((2000 : ℝ) : EReal) := by
  simp [Ideal.ofBits, Ideal.ieee, -EReal.coe_mul]; norm_num

/-- `5000.0`. -/
theorem ofBits_5000 : Ideal.ofBits .f32 0x459C4000#32 = ((5000 : ℝ) : EReal) := by
  simp [Ideal.ofBits, Ideal.ieee, -EReal.coe_mul]; norm_num

/-- `3000.0`. -/
theorem ofBits_3000 : Ideal.ofBits .f32 0x453B8000#32 = ((3000 : ℝ) : EReal) := by
  simp [Ideal.ofBits, Ideal.ieee, -EReal.coe_mul]; norm_num

/-- The quiet-NaN pattern denotes the junk value `⊥`. -/
theorem ofBits_nan : Ideal.ofBits .f32 0x7FC00000#32 = ⊥ := by
  simp [Ideal.ofBits, Ideal.ieee]

/-- The single-precision number nearest `10⁻⁵`: `10995116 · 2⁻⁴⁰`. -/
def eps5 : ℝ := 10995116 / 2 ^ 40

/-- The single-precision number nearest `10⁻¹²`: `9223372 · 2⁻⁶³`. -/
def eps12 : ℝ := 9223372 / 2 ^ 63

/-- `eps5` is positive. -/
theorem eps5_pos : 0 < eps5 := by unfold eps5; positivity

/-- `eps12` is positive. -/
theorem eps12_pos : 0 < eps12 := by unfold eps12; positivity

/-- The literal `1e-5`. -/
theorem ofBits_eps5 : Ideal.ofBits .f32 0x3727C5AC#32 = ((eps5 : ℝ) : EReal) := by
  simp [Ideal.ofBits, Ideal.ieee, -EReal.coe_mul, eps5]; norm_num

/-- The literal `1e-12`. -/
theorem ofBits_eps12 : Ideal.ofBits .f32 0x2B8CBCCC#32 = ((eps12 : ℝ) : EReal) := by
  simp [Ideal.ofBits, Ideal.ieee, -EReal.coe_mul, eps12]; norm_num

end Cert.Lib.ERealArith

end
-- ==== Proof.LibRealArr.lean ====
/-
  Arrays of extended reals every entry of which is a REAL number, and the closure of that property under the array
  operations of the two programs at the ideal reading: entrywise arithmetic, quotients by entrywise nonzero
  divisors, square roots of entrywise signed arguments, constants, re-indexings (every entry of the result is an
  entry of an operand), and the finite sums (reductions, matrix products, accumulating scatters). With the sign
  facts carried alongside (entrywise positive, nonnegative, nonzero), a whole computation on real inputs stays
  real, and its values can be moved into ℝ entry by entry.
-/
import Idealize.ShloMosaic.PureOps.Ideal
import Idealize.ShloMosaic.PureOps.Ideal.Laws
import Idealize.ShloMosaic.Lib.ValueIdx
import proofs.«160734_j12781822673112_1_alg».proof.Proof.LibERealArith

noncomputable section

namespace Cert.Val

open Idealize.ShloMosaic
open Cert.Lib.ERealArith
open scoped BigOperators

/-! ### Real scalars -/

/-- An extended real that is (the coercion of) a real number. -/
def IsReal (x : EReal) : Prop := ∃ r : ℝ, x = (r : EReal)

/-- An array of extended reals every entry of which is a real number. -/
def IsRealArr {S : Shape} (x : S.Idx → EReal) : Prop := ∀ i, ∃ r : ℝ, x i = (r : EReal)

/-- A coercion is real. -/
theorem isReal_coe (r : ℝ) : IsReal (r : EReal) := ⟨r, rfl⟩

/-- Zero is real. -/
theorem isReal_zero : IsReal 0 := ⟨0, zero_eq_coe⟩

/-- One is real. -/
theorem isReal_one : IsReal 1 := ⟨1, one_eq_coe⟩

/-- A real extended real is the coercion of its real part. -/
theorem IsReal.coe_toReal {x : EReal} (hx : IsReal x) : x = ((x.toReal : ℝ) : EReal) := by
  obtain ⟨r, rfl⟩ := hx
  rw [EReal.toReal_coe]

/-- The sum of two reals is real. -/
theorem IsReal.add {x y : EReal} (hx : IsReal x) (hy : IsReal y) : IsReal (x + y) := by
  obtain ⟨a, rfl⟩ := hx; obtain ⟨b, rfl⟩ := hy; exact ⟨a + b, add_coe a b⟩

/-- The difference of two reals is real. -/
theorem IsReal.sub {x y : EReal} (hx : IsReal x) (hy : IsReal y) : IsReal (x - y) := by
  obtain ⟨a, rfl⟩ := hx; obtain ⟨b, rfl⟩ := hy; exact ⟨a - b, sub_coe a b⟩

/-- The product of two reals is real. -/
theorem IsReal.mul {x y : EReal} (hx : IsReal x) (hy : IsReal y) : IsReal (x * y) := by
  obtain ⟨a, rfl⟩ := hx; obtain ⟨b, rfl⟩ := hy; exact ⟨a * b, mul_coe a b⟩

/-- The negative of a real is real. -/
theorem IsReal.neg {x : EReal} (hx : IsReal x) : IsReal (-x) := by
  obtain ⟨a, rfl⟩ := hx; exact ⟨-a, neg_coe a⟩

/-- The maximum of two reals is real. -/
theorem IsReal.max {x y : EReal} (hx : IsReal x) (hy : IsReal y) : IsReal (max x y) := by
  obtain ⟨a, rfl⟩ := hx; obtain ⟨b, rfl⟩ := hy; exact ⟨Max.max a b, max_coe a b⟩

/-- A finite sum of reals is real. -/
theorem IsReal.sum {ι : Type*} (s : Finset ι) (g : ι → EReal) (h : ∀ i ∈ s, IsReal (g i)) : IsReal (∑ i ∈ s, g i) := by
  classical
  induction s using Finset.induction_on with
  | empty => exact ⟨0, by simp⟩
  | insert a s ha ih =>
    rw [Finset.sum_insert ha]
    exact (h a (Finset.mem_insert_self a s)).add (ih fun i hi => h i (Finset.mem_insert_of_mem hi))

/-- The quotient of a real by a nonzero real is real. -/
theorem IsReal.div {x y : EReal} (hx : IsReal x) (hy : ∃ r : ℝ, y = (r : EReal) ∧ r ≠ 0) : IsReal (Ideal.div x y) := by
  obtain ⟨a, rfl⟩ := hx; obtain ⟨b, rfl, hb⟩ := hy; exact ⟨a / b, div_coe hb a⟩

/-- The reciprocal square root of a positive real is a positive real. -/
theorem rsqrt_pos_real {x : EReal} (hx : ∃ r : ℝ, x = (r : EReal) ∧ 0 < r) :
    ∃ r : ℝ, Ideal.rsqrt x = (r : EReal) ∧ 0 < r := by
  obtain ⟨a, rfl, ha⟩ := hx
  exact ⟨(Real.sqrt a)⁻¹, rsqrt_coe ha, inv_pos.mpr (sqrt_pos' ha)⟩

/-- The square root of a nonnegative real is a nonnegative real. -/
theorem sqrt_nonneg_real {x : EReal} (hx : ∃ r : ℝ, x = (r : EReal) ∧ 0 ≤ r) :
    ∃ r : ℝ, Ideal.sqrt x = (r : EReal) ∧ 0 ≤ r := by
  obtain ⟨a, rfl, ha⟩ := hx
  exact ⟨Real.sqrt a, sqrt_coe ha, Real.sqrt_nonneg a⟩

/-- A positive real is a nonzero real. -/
theorem ne_zero_of_pos_real {x : EReal} (hx : ∃ r : ℝ, x = (r : EReal) ∧ 0 < r) : ∃ r : ℝ, x = (r : EReal) ∧ r ≠ 0 := by
  obtain ⟨a, h, ha⟩ := hx; exact ⟨a, h, ha.ne'⟩

/-- A positive real is a nonnegative real. -/
theorem nonneg_of_pos_real {x : EReal} (hx : ∃ r : ℝ, x = (r : EReal) ∧ 0 < r) : ∃ r : ℝ, x = (r : EReal) ∧ 0 ≤ r := by
  obtain ⟨a, h, ha⟩ := hx; exact ⟨a, h, ha.le⟩

/-- A real with a sign condition is real. -/
theorem isReal_of_pos_real {x : EReal} (hx : ∃ r : ℝ, x = (r : EReal) ∧ 0 < r) : IsReal x := by
  obtain ⟨a, h, _⟩ := hx; exact ⟨a, h⟩

/-- A nonnegative real is real. -/
theorem isReal_of_nonneg_real {x : EReal} (hx : ∃ r : ℝ, x = (r : EReal) ∧ 0 ≤ r) : IsReal x := by
  obtain ⟨a, h, _⟩ := hx; exact ⟨a, h⟩

/-- A nonzero real is real. -/
theorem isReal_of_ne_zero_real {x : EReal} (hx : ∃ r : ℝ, x = (r : EReal) ∧ r ≠ 0) : IsReal x := by
  obtain ⟨a, h, _⟩ := hx; exact ⟨a, h⟩

/-- The maximum of a real and a positive real is a positive real. -/
theorem max_pos_real_right {x c : EReal} (hx : IsReal x) (hc : ∃ r : ℝ, c = (r : EReal) ∧ 0 < r) :
    ∃ r : ℝ, max x c = (r : EReal) ∧ 0 < r := by
  obtain ⟨a, rfl⟩ := hx; obtain ⟨e, rfl, he⟩ := hc
  exact ⟨Max.max a e, max_coe a e, lt_of_lt_of_le he (le_max_right a e)⟩

/-- The maximum of a real and zero is a nonnegative real. -/
theorem max_zero_nonneg_real {x : EReal} (hx : IsReal x) : ∃ r : ℝ, max x 0 = (r : EReal) ∧ 0 ≤ r := by
  obtain ⟨a, rfl⟩ := hx
  exact ⟨Max.max a 0, by rw [zero_eq_coe, max_coe], le_max_right a 0⟩

/-- The sum of a nonnegative real and a positive real is a positive real. -/
theorem add_pos_real {x e : EReal} (hx : ∃ r : ℝ, x = (r : EReal) ∧ 0 ≤ r) (he : ∃ r : ℝ, e = (r : EReal) ∧ 0 < r) :
    ∃ r : ℝ, x + e = (r : EReal) ∧ 0 < r := by
  obtain ⟨a, rfl, ha⟩ := hx; obtain ⟨b, rfl, hb⟩ := he
  exact ⟨a + b, add_coe a b, add_pos_of_nonneg_of_pos ha hb⟩

/-- The product of a real with itself is a nonnegative real. -/
theorem mul_self_nonneg_real {x : EReal} (hx : IsReal x) : ∃ r : ℝ, x * x = (r : EReal) ∧ 0 ≤ r := by
  obtain ⟨a, rfl⟩ := hx; exact ⟨a * a, mul_coe a a, mul_self_nonneg a⟩

/-- A finite sum of nonnegative reals is a nonnegative real. -/
theorem sum_nonneg_real {ι : Type*} (s : Finset ι) (g : ι → EReal) (h : ∀ i ∈ s, ∃ r : ℝ, g i = (r : EReal) ∧ 0 ≤ r) :
    ∃ r : ℝ, (∑ i ∈ s, g i) = (r : EReal) ∧ 0 ≤ r := by
  classical
  induction s using Finset.induction_on with
  | empty => exact ⟨0, by simp, le_refl 0⟩
  | insert a s ha ih =>
    rw [Finset.sum_insert ha]
    obtain ⟨p, hp, hp0⟩ := h a (Finset.mem_insert_self a s)
    obtain ⟨q, hq, hq0⟩ := ih fun i hi => h i (Finset.mem_insert_of_mem hi)
    exact ⟨p + q, by rw [hp, hq, add_coe], add_nonneg hp0 hq0⟩

/-! ### The literals -/

/-- The literal 0.0 is real. -/
theorem isReal_ofBits_zero : IsReal (Ideal.ofBits .f32 0x00000000#32) := ⟨0, ofBits_zero⟩
/-- The literal 1.0 is a positive real. -/
theorem ofBits_one_pos : ∃ r : ℝ, Ideal.ofBits .f32 0x3F800000#32 = (r : EReal) ∧ 0 < r := ⟨1, ofBits_one, one_pos⟩
/-- The literal 100000.0 is a positive real. -/
theorem ofBits_100000_pos : ∃ r : ℝ, Ideal.ofBits .f32 0x47C35000#32 = (r : EReal) ∧ 0 < r :=
  ⟨100000, ofBits_100000, by norm_num⟩
/-- The literal 2000.0 is a positive real. -/
theorem ofBits_2000_pos : ∃ r : ℝ, Ideal.ofBits .f32 0x44FA0000#32 = (r : EReal) ∧ 0 < r := ⟨2000, ofBits_2000, by norm_num⟩
/-- The literal 5000.0 is a positive real. -/
theorem ofBits_5000_pos : ∃ r : ℝ, Ideal.ofBits .f32 0x459C4000#32 = (r : EReal) ∧ 0 < r := ⟨5000, ofBits_5000, by norm_num⟩
/-- The literal 3000.0 is a positive real. -/
theorem ofBits_3000_pos : ∃ r : ℝ, Ideal.ofBits .f32 0x453B8000#32 = (r : EReal) ∧ 0 < r := ⟨3000, ofBits_3000, by norm_num⟩
/-- The literal 1e-5 is a positive real. -/
theorem ofBits_eps5_pos : ∃ r : ℝ, Ideal.ofBits .f32 0x3727C5AC#32 = (r : EReal) ∧ 0 < r := ⟨eps5, ofBits_eps5, eps5_pos⟩
/-- The literal 1e-12 is a positive real. -/
theorem ofBits_eps12_pos : ∃ r : ℝ, Ideal.ofBits .f32 0x2B8CBCCC#32 = (r : EReal) ∧ 0 < r := ⟨eps12, ofBits_eps12, eps12_pos⟩

/-! ### Arrays: entrywise facts -/

section Arrays
variable {s t : Shape} {φ : FTy}

/-- A real array is entrywise the coercion of its real parts. -/
theorem IsRealArr.coe_toReal {x : s.Idx → EReal} (hx : IsRealArr x) (i : s.Idx) : x i = (((x i).toReal : ℝ) : EReal) :=
  IsReal.coe_toReal (hx i)

/-- The array of coercions of a real array is real. -/
theorem isRealArr_coe (f : s.Idx → ℝ) : IsRealArr (fun i => ((f i : ℝ) : EReal)) := fun i => ⟨f i, rfl⟩

/-- An array equal entrywise to coercions is real. -/
theorem isRealArr_of_eq {x : s.Idx → EReal} (f : s.Idx → ℝ) (h : ∀ i, x i = ((f i : ℝ) : EReal)) : IsRealArr x :=
  fun i => ⟨f i, h i⟩

/-- Entrywise positive reals are real. -/
theorem isRealArr_of_pos {x : s.Idx → EReal} (h : ∀ i, ∃ r : ℝ, x i = (r : EReal) ∧ 0 < r) : IsRealArr x :=
  fun i => isReal_of_pos_real (h i)

/-- Entrywise nonnegative reals are real. -/
theorem isRealArr_of_nonneg {x : s.Idx → EReal} (h : ∀ i, ∃ r : ℝ, x i = (r : EReal) ∧ 0 ≤ r) : IsRealArr x :=
  fun i => isReal_of_nonneg_real (h i)

/-- Entrywise positive reals are entrywise nonzero reals. -/
theorem ne_zero_of_pos_arr {x : s.Idx → EReal} (h : ∀ i, ∃ r : ℝ, x i = (r : EReal) ∧ 0 < r) :
    ∀ i, ∃ r : ℝ, x i = (r : EReal) ∧ r ≠ 0 := fun i => ne_zero_of_pos_real (h i)

/-! ### Entrywise arithmetic -/

/-- `addf` of real arrays is real. -/
theorem isRealArr_addf {x y : FVec Ideal s φ} (hx : IsRealArr x) (hy : IsRealArr y) : IsRealArr (addf x y) :=
  fun i => IsReal.add (hx i) (hy i)

/-- `subf` of real arrays is real. -/
theorem isRealArr_subf {x y : FVec Ideal s φ} (hx : IsRealArr x) (hy : IsRealArr y) : IsRealArr (subf x y) :=
  fun i => IsReal.sub (hx i) (hy i)

/-- `mulf` of real arrays is real. -/
theorem isRealArr_mulf {x y : FVec Ideal s φ} (hx : IsRealArr x) (hy : IsRealArr y) : IsRealArr (mulf x y) :=
  fun i => IsReal.mul (hx i) (hy i)

/-- `mulf` of a real array with itself (a square) is entrywise a nonnegative real. -/
theorem mulf_self_nonneg {x : FVec Ideal s φ} (hx : IsRealArr x) : ∀ i, ∃ r : ℝ, mulf x x i = (r : EReal) ∧ 0 ≤ r :=
  fun i => mul_self_nonneg_real (hx i)

/-- `maximumf` of real arrays is real. -/
theorem isRealArr_maximumf {x y : FVec Ideal s φ} (hx : IsRealArr x) (hy : IsRealArr y) : IsRealArr (maximumf x y) :=
  fun i => IsReal.max (hx i) (hy i)

/-- `maximumf` of a real array against an entrywise positive real array is entrywise a positive real. -/
theorem maximumf_pos_right {x c : FVec Ideal s φ} (hx : IsRealArr x) (hc : ∀ i, ∃ r : ℝ, c i = (r : EReal) ∧ 0 < r) :
    ∀ i, ∃ r : ℝ, maximumf x c i = (r : EReal) ∧ 0 < r := fun i => max_pos_real_right (hx i) (hc i)

/-- The kernel's `divf` of a real array by an entrywise nonzero real array is real. -/
theorem isRealArr_divf {x y : FVec Ideal s φ} (hx : IsRealArr x) (hy : ∀ i, ∃ r : ℝ, y i = (r : EReal) ∧ r ≠ 0) :
    IsRealArr (divf x y) := fun i => IsReal.div (hx i) (hy i)

/-- The host's quotient of a real array by an entrywise nonzero real array is real. -/
theorem isRealArr_hostDivf {x y : FVec Ideal s φ} (hx : IsRealArr x) (hy : ∀ i, ∃ r : ℝ, y i = (r : EReal) ∧ r ≠ 0) :
    IsRealArr (Host.divf x y) := fun i => IsReal.div (hx i) (hy i)

/-- The kernel's `divf` by the maximum of a real array with an entrywise positive real array is real. -/
theorem isRealArr_divf_max {x y c : FVec Ideal s φ} (hx : IsRealArr x) (hy : IsRealArr y)
    (hc : ∀ i, ∃ r : ℝ, c i = (r : EReal) ∧ 0 < r) : IsRealArr (divf x (maximumf y c)) :=
  isRealArr_divf hx (ne_zero_of_pos_arr (maximumf_pos_right hy hc))

/-- The host's quotient by the maximum of a real array with an entrywise positive real array is real. -/
theorem isRealArr_hostDivf_max {x y c : FVec Ideal s φ} (hx : IsRealArr x) (hy : IsRealArr y)
    (hc : ∀ i, ∃ r : ℝ, c i = (r : EReal) ∧ 0 < r) : IsRealArr (Host.divf x (maximumf y c)) :=
  isRealArr_hostDivf hx (ne_zero_of_pos_arr (maximumf_pos_right hy hc))

/-- The kernel's reciprocal square root of an entrywise positive real array is entrywise a positive real. -/
theorem rsqrt_pos_arr {x : FVec Ideal s φ} (hx : ∀ i, ∃ r : ℝ, x i = (r : EReal) ∧ 0 < r) :
    ∀ i, ∃ r : ℝ, rsqrt x i = (r : EReal) ∧ 0 < r := fun i => rsqrt_pos_real (hx i)

/-- The kernel's reciprocal square root of an entrywise positive real array is real. -/
theorem isRealArr_rsqrt {x : FVec Ideal s φ} (hx : ∀ i, ∃ r : ℝ, x i = (r : EReal) ∧ 0 < r) : IsRealArr (rsqrt x) :=
  isRealArr_of_pos (rsqrt_pos_arr hx)

/-- The host's reciprocal square root of an entrywise positive real array is entrywise a positive real. -/
theorem hostRsqrt_pos_arr {x : FVec Ideal s φ} (hx : ∀ i, ∃ r : ℝ, x i = (r : EReal) ∧ 0 < r) :
    ∀ i, ∃ r : ℝ, Host.rsqrt x i = (r : EReal) ∧ 0 < r := fun i => rsqrt_pos_real (hx i)

/-- The host's reciprocal square root of an entrywise positive real array is real. -/
theorem isRealArr_hostRsqrt {x : FVec Ideal s φ} (hx : ∀ i, ∃ r : ℝ, x i = (r : EReal) ∧ 0 < r) : IsRealArr (Host.rsqrt x) :=
  isRealArr_of_pos (hostRsqrt_pos_arr hx)

/-- The kernel's square root of an entrywise nonnegative real array is entrywise a nonnegative real. -/
theorem sqrt_nonneg_arr {x : FVec Ideal s φ} (hx : ∀ i, ∃ r : ℝ, x i = (r : EReal) ∧ 0 ≤ r) :
    ∀ i, ∃ r : ℝ, sqrt x i = (r : EReal) ∧ 0 ≤ r := fun i => sqrt_nonneg_real (hx i)

/-- The kernel's square root of an entrywise nonnegative real array is real. -/
theorem isRealArr_sqrt {x : FVec Ideal s φ} (hx : ∀ i, ∃ r : ℝ, x i = (r : EReal) ∧ 0 ≤ r) : IsRealArr (sqrt x) :=
  isRealArr_of_nonneg (sqrt_nonneg_arr hx)

/-- The host's square root of an entrywise nonnegative real array is entrywise a nonnegative real. -/
theorem hostSqrt_nonneg_arr {x : FVec Ideal s φ} (hx : ∀ i, ∃ r : ℝ, x i = (r : EReal) ∧ 0 ≤ r) :
    ∀ i, ∃ r : ℝ, Host.sqrt x i = (r : EReal) ∧ 0 ≤ r := fun i => sqrt_nonneg_real (hx i)

/-- The host's square root of an entrywise nonnegative real array is real. -/
theorem isRealArr_hostSqrt {x : FVec Ideal s φ} (hx : ∀ i, ∃ r : ℝ, x i = (r : EReal) ∧ 0 ≤ r) : IsRealArr (Host.sqrt x) :=
  isRealArr_of_nonneg (hostSqrt_nonneg_arr hx)

/-- A change of format is the identity: `truncf` of a real array is real. -/
theorem isRealArr_truncf {ψ : FTy} {a : FVec Ideal s φ} (h : ψ.bits < φ.bits) (ha : IsRealArr a) :
    IsRealArr (truncf ψ a h : FVec Ideal s ψ) := fun i => ha i

/-- A change of format is the identity: `extf` of a real array is real. -/
theorem isRealArr_extf {ψ : FTy} {a : FVec Ideal s φ} (h : φ.bits < ψ.bits) (ha : IsRealArr a) :
    IsRealArr (extf ψ a h : FVec Ideal s ψ) := fun i => ha i

/-- A signed integer array read as floats is real. -/
theorem isRealArr_sitofp {w : Nat} (x : IVec s w) : IsRealArr (sitofp (F := Ideal) φ x) :=
  fun i => ⟨((x i).toInt : ℝ), rfl⟩

/-- Where every condition bit is set, `select` is its first branch. -/
theorem select_of_one {α : Type} {c : IVec s 1} (a b : s.Idx → α) (hc : ∀ i, c i = 1#1) : select c a b = a := by
  funext i
  show Scalar.select (c i) (a i) (b i) = a i
  rw [hc i]; exact if_pos rfl

/-- `select` between two real arrays is real. -/
theorem isRealArr_select {c : IVec s 1} {a b : s.Idx → EReal} (ha : IsRealArr a) (hb : IsRealArr b) :
    IsRealArr (select c a b) := by
  intro i
  show ∃ r : ℝ, Scalar.select (c i) (a i) (b i) = (r : EReal)
  unfold Scalar.select
  split
  · exact ha i
  · exact hb i

/-- "Greater than" between entries that are reals in that order sets the bit. -/
theorem cmpf_ogt_one {a b : FVec Ideal s φ} {ra rb : ℝ} (i : s.Idx) (ha : a i = (ra : EReal)) (hb : b i = (rb : EReal))
    (h : rb < ra) : cmpf .ogt a b i = 1#1 := by
  show Ideal.cmp .ogt (a i) (b i) = 1#1
  rw [ha, hb]; exact cmp_ogt_coe_of_lt h

/-! ### Constants and broadcasts -/

/-- A broadcast scalar that is real is a real array. -/
theorem isRealArr_broadcast {x : EReal} (hx : IsReal x) : IsRealArr (broadcast t x) := fun _ => hx

/-- A broadcast positive real is entrywise a positive real. -/
theorem broadcast_pos {x : EReal} (hx : ∃ r : ℝ, x = (r : EReal) ∧ 0 < r) :
    ∀ i, ∃ r : ℝ, broadcast t x i = (r : EReal) ∧ 0 < r := fun _ => hx

/-- The constant array of 0.0 is real. -/
theorem isRealArr_constant_zero : IsRealArr (constant (F := Ideal) s .f32 0x00000000#32) := fun _ => isReal_ofBits_zero

/-- The constant array of 0.0 is entrywise the real zero. -/
theorem constant_zero_apply (i : s.Idx) : constant (F := Ideal) s .f32 0x00000000#32 i = ((0 : ℝ) : EReal) := ofBits_zero

/-- The constant array of 1.0 is entrywise a positive real. -/
theorem constant_one_pos : ∀ i, ∃ r : ℝ, constant (F := Ideal) s .f32 0x3F800000#32 i = (r : EReal) ∧ 0 < r :=
  fun _ => ofBits_one_pos

/-- The constant array of 100000.0 is entrywise a positive real. -/
theorem constant_100000_pos : ∀ i, ∃ r : ℝ, constant (F := Ideal) s .f32 0x47C35000#32 i = (r : EReal) ∧ 0 < r :=
  fun _ => ofBits_100000_pos

/-- The constant array of 2000.0 is entrywise a positive real. -/
theorem constant_2000_pos : ∀ i, ∃ r : ℝ, constant (F := Ideal) s .f32 0x44FA0000#32 i = (r : EReal) ∧ 0 < r :=
  fun _ => ofBits_2000_pos

/-- The constant array of 5000.0 is entrywise a positive real. -/
theorem constant_5000_pos : ∀ i, ∃ r : ℝ, constant (F := Ideal) s .f32 0x459C4000#32 i = (r : EReal) ∧ 0 < r :=
  fun _ => ofBits_5000_pos

/-- The constant array of 3000.0 is entrywise a positive real. -/
theorem constant_3000_pos : ∀ i, ∃ r : ℝ, constant (F := Ideal) s .f32 0x453B8000#32 i = (r : EReal) ∧ 0 < r :=
  fun _ => ofBits_3000_pos

/-- The constant array of 1e-5 is entrywise a positive real. -/
theorem constant_eps5_pos : ∀ i, ∃ r : ℝ, constant (F := Ideal) s .f32 0x3727C5AC#32 i = (r : EReal) ∧ 0 < r :=
  fun _ => ofBits_eps5_pos

/-- The constant array of 1e-12 is entrywise a positive real. -/
theorem constant_eps12_pos : ∀ i, ∃ r : ℝ, constant (F := Ideal) s .f32 0x2B8CBCCC#32 i = (r : EReal) ∧ 0 < r :=
  fun _ => ofBits_eps12_pos

/-- A constant array of a positive real literal is real. -/
theorem isRealArr_constant_of_pos {b : BitVec (FTy.f32).bits} (h : ∃ r : ℝ, Ideal.ofBits .f32 b = (r : EReal) ∧ 0 < r) :
    IsRealArr (constant (F := Ideal) s .f32 b) := fun _ => isReal_of_pos_real h

/-! ### Re-indexings: every entry of the result is an entry of an operand -/

/-- Reading a real array through any map of indices gives a real array. -/
theorem isRealArr_comp {x : s.Idx → EReal} (hx : IsRealArr x) (f : t.Idx → s.Idx) : IsRealArr (fun j => x (f j)) :=
  fun j => hx (f j)

/-- `broadcastInDim` of a real array is real. -/
theorem isRealArr_broadcastInDim {x : s.Idx → EReal} (dims : Fin s.rank → Fin t.rank) (h : s.BroadcastsInDim t dims)
    (hx : IsRealArr x) : IsRealArr (broadcastInDim t dims h x) := fun _ => hx _

/-- `broadcastInDim` of an entrywise positive real array is entrywise a positive real. -/
theorem broadcastInDim_pos {x : s.Idx → EReal} (dims : Fin s.rank → Fin t.rank) (h : s.BroadcastsInDim t dims)
    (hx : ∀ i, ∃ r : ℝ, x i = (r : EReal) ∧ 0 < r) : ∀ j, ∃ r : ℝ, broadcastInDim t dims h x j = (r : EReal) ∧ 0 < r :=
  fun _ => hx _

/-- `broadcastInDim` of an entrywise nonzero real array is entrywise a nonzero real. -/
theorem broadcastInDim_ne_zero {x : s.Idx → EReal} (dims : Fin s.rank → Fin t.rank) (h : s.BroadcastsInDim t dims)
    (hx : ∀ i, ∃ r : ℝ, x i = (r : EReal) ∧ r ≠ 0) : ∀ j, ∃ r : ℝ, broadcastInDim t dims h x j = (r : EReal) ∧ r ≠ 0 :=
  fun _ => hx _

/-- `broadcastTo` of a real array is real. -/
theorem isRealArr_broadcastTo {x : s.Idx → EReal} (h : s.Broadcasts t) (hx : IsRealArr x) : IsRealArr (broadcastTo t x h) :=
  fun _ => hx _

/-- `shapeCast` of a real array is real. -/
theorem isRealArr_shapeCast {x : s.Idx → EReal} (h : s.ShapeCasts t) (hx : IsRealArr x) : IsRealArr (shapeCast t x h) :=
  fun _ => hx _

/-- `extractStridedSlice` of a real array is real. -/
theorem isRealArr_extractStridedSlice {x : s.Idx → EReal} (off : Fin s.rank → Nat) (h : s.Slices off t) (hx : IsRealArr x) :
    IsRealArr (extractStridedSlice t off x h) := fun _ => hx _

/-- `transpose` of a real array is real. -/
theorem isRealArr_transpose {x : s.Idx → EReal} (perm : List (Fin s.rank)) (h : s.Transposes perm t) (hx : IsRealArr x) :
    IsRealArr (transpose t perm x h) := fun _ => hx _

/-- A gather from a real array is real: each result entry is an operand entry. -/
theorem isRealArr_gather {si : Shape} {w : Nat} (d : GatherDims s si t) {x : s.Idx → EReal} (idx : IVec si w) (hx : IsRealArr x) :
    IsRealArr (Host.gather d x idx) := fun _ => hx _

/-- A concatenation of real arrays is real. -/
theorem isRealArr_concatenate (a : Fin t.rank) (xs : List ((s : Shape) × (s.Idx → EReal)))
    (hc : Shape.Concatenates (xs.map (·.1)) t a) (h : ∀ p ∈ xs, IsRealArr p.2) : IsRealArr (concatenate t a xs hc) := by
  intro j
  unfold concatenate
  exact h _ (List.getElem_mem _) _

/-! ### Sums -/

/-- The host's sum of a real array from a real initial value is real. -/
theorem isRealArr_hostReduceAdd {axes : List (Fin s.rank)} {u : Shape} {x : FVec Ideal s φ} {init : u.Idx → Ideal φ}
    (h : s.ReducesTo axes t) (hu : 0 < u.numel) (hx : IsRealArr x) (hi : IsRealArr init) :
    IsRealArr (Host.reduceAdd x init h hu) := by
  intro j
  show IsReal (Ideal.hostReduceAdd h x (init (Shape.Idx.first hu)) j)
  unfold Ideal.hostReduceAdd
  exact IsReal.add (hi _) (IsReal.sum _ _ fun i _ => hx i)

/-- The host's sum of an entrywise nonnegative real array from a nonnegative real initial value is entrywise a nonnegative
    real. -/
theorem hostReduceAdd_nonneg {axes : List (Fin s.rank)} {u : Shape} {x : FVec Ideal s φ} {init : u.Idx → Ideal φ}
    (h : s.ReducesTo axes t) (hu : 0 < u.numel) (hx : ∀ i, ∃ r : ℝ, x i = (r : EReal) ∧ 0 ≤ r)
    (hi : ∀ i, ∃ r : ℝ, init i = (r : EReal) ∧ 0 ≤ r) :
    ∀ j, ∃ r : ℝ, Host.reduceAdd x init h hu j = (r : EReal) ∧ 0 ≤ r := by
  intro j
  show ∃ r : ℝ, Ideal.hostReduceAdd h x (init (Shape.Idx.first hu)) j = (r : EReal) ∧ 0 ≤ r
  unfold Ideal.hostReduceAdd
  obtain ⟨p, hp, hp0⟩ := hi (Shape.Idx.first hu)
  obtain ⟨q, hq, hq0⟩ := sum_nonneg_real (Finset.univ.filter (fun i => h.drop i = j)) x fun i _ => hx i
  exact ⟨p + q, by rw [hp, hq, add_coe], add_nonneg hp0 hq0⟩

/-- The kernel's sum (`vector.multi_reduction <add>`) of a real array is real. -/
theorem isRealArr_multiReduction_add {axes : List (Fin s.rank)} {src : FVec Ideal s φ} (acc : BitVec φ.bits)
    (h : s.Reduces axes t) (hφ : FKind.Formats φ) (hacc : acc = FKind.add.neutral φ hφ) (hx : IsRealArr src) :
    IsRealArr (multiReduction .add axes t src acc h hφ hacc) := by
  intro j
  show IsReal (Ideal.reduceAdd h src j)
  unfold Ideal.reduceAdd
  exact IsReal.sum _ _ fun i _ => hx i

/-- The kernel's matrix product of real operands onto a real accumulator is real. -/
theorem isRealArr_matmul {sl sr so : Shape} {φ₁ φ₂ : FTy} (d : DotDims sl sr so) (prec : Option ContractPrecision)
    {lhs : FVec Ideal sl φ₁} {rhs : FVec Ideal sr φ₂} {acc : FVec Ideal so .f32}
    (hl : IsRealArr lhs) (hr : IsRealArr rhs) (ha : IsRealArr acc) : IsRealArr (matmul d prec lhs rhs acc) := by
  intro j
  show IsReal (Ideal.matmul d lhs rhs acc j)
  unfold Ideal.matmul
  exact IsReal.add (ha j) (IsReal.sum _ _ fun k _ => IsReal.mul (hl _) (hr _))

/-- The host's matrix product of real operands is real. -/
theorem isRealArr_dotGeneral {sl sr so : Shape} {φ₁ φ₂ : FTy} (d : DotDims sl sr so) (prec : Option ContractPrecision)
    {lhs : FVec Ideal sl φ₁} {rhs : FVec Ideal sr φ₂} (hl : IsRealArr lhs) (hr : IsRealArr rhs) :
    IsRealArr (Host.dotGeneral d prec lhs rhs) := by
  intro j
  show IsReal (Ideal.matmul d lhs rhs (fun _ => 0) j)
  unfold Ideal.matmul
  exact IsReal.add isReal_zero (IsReal.sum _ _ fun k _ => IsReal.mul (hl _) (hr _))

/-- The host's accumulating scatter of real updates into a real operand is real. -/
theorem isRealArr_scatterAdd {si u : Shape} {w : Nat} (d : ScatterDims s si u) {x : FVec Ideal s φ} (idx : IVec si w)
    {upd : FVec Ideal u φ} (hx : IsRealArr x) (hu : IsRealArr upd) : IsRealArr (Host.scatterAdd d x idx upd) := by
  intro i
  show IsReal (Ideal.hostScatterAdd d x idx upd i)
  unfold Ideal.hostScatterAdd
  exact IsReal.add (hx i) (IsReal.sum _ _ fun j _ => hu j)

/-- The host's accumulating scatter of entrywise nonnegative real updates into an entrywise nonnegative real operand is
    entrywise a nonnegative real (a count of ones, for one). -/
theorem scatterAdd_nonneg {si u : Shape} {w : Nat} (d : ScatterDims s si u) {x : FVec Ideal s φ} (idx : IVec si w)
    {upd : FVec Ideal u φ} (hx : ∀ i, ∃ r : ℝ, x i = (r : EReal) ∧ 0 ≤ r) (hu : ∀ i, ∃ r : ℝ, upd i = (r : EReal) ∧ 0 ≤ r) :
    ∀ i, ∃ r : ℝ, Host.scatterAdd d x idx upd i = (r : EReal) ∧ 0 ≤ r := by
  intro i
  show ∃ r : ℝ, Ideal.hostScatterAdd d x idx upd i = (r : EReal) ∧ 0 ≤ r
  unfold Ideal.hostScatterAdd
  obtain ⟨p, hp, hp0⟩ := hx i
  obtain ⟨q, hq, hq0⟩ := sum_nonneg_real (Finset.univ.filter (fun j => d.resultIdx? j idx = some i)) upd fun j _ => hu j
  exact ⟨p + q, by rw [hp, hq, add_coe], add_nonneg hp0 hq0⟩

end Arrays

end Cert.Val

end
-- ==== Proof.Spec.lean ====
/-
  One SAGE layer, entry by entry, in two arrangements, over the extended reals.

  For a node `p` and an output channel `q`, with `A` the neighbour sums, `c p = max (count p) 1` the clamped
  in-degree, `X` the node features, `Wl`, `Wr` the two weight matrices and `b` the bias:

    kernel's arrangement      (∑ₖ A p k · Wl k q) · (1 / c p) + ∑ₖ X p k · Wr k q + b q
    reference's arrangement    ∑ₖ (A p k / c p) · Wl k q      + ∑ₖ X p k · Wr k q + b q

  The two differ by moving the row's scalar `1 / c p` across the sum over `k`: distributivity, which on the
  extended reals needs the terms `A p k · Wl k q` and the scalar to be real numbers (`layer_arrangements`).
  The first layer is followed by `max · 0`, the second is not. The module also says that a layer of real arrays is
  a real array, which is what lets the second layer use the same law on the first layer's output.
-/
import Idealize.ShloMosaic.PureOps.Ideal
import Idealize.ShloMosaic.Lib.ValueIdx
import proofs.«160734_j12781822673112_1_alg».proof.Proof.LibRealArr

noncomputable section

namespace Cert.Sage

open Idealize.ShloMosaic Idealize.ShloMosaic.ValueIdx Cert.Val Cert.Lib.ERealArith
open scoped BigOperators

/-- The literal `1.0`, kept as its word. -/
abbrev one : EReal := Ideal.ofBits .f32 0x3F800000#32
/-- The literal `0.0`, kept as its word. -/
abbrev zero : EReal := Ideal.ofBits .f32 0x00000000#32

/-- A matrix of extended reals. -/
abbrev Mat (a b : ℕ) := FVec Ideal (⟨2, ![a, b]⟩ : Shape) .f32
/-- A vector of extended reals. -/
abbrev Vct (a : ℕ) := FVec Ideal (⟨1, ![a]⟩ : Shape) .f32

variable {n d e : ℕ}

/-- The kernel's arrangement at `(p, q)`: the count as a column `[n, 1]`, the bias as a row `[1, e]`. -/
def preKAt (A : Mat n d) (C : Mat n 1) (X : Mat n d) (Wl Wr : Mat d e) (B : Mat 1 e) (p : Fin n) (q : Fin e) : EReal :=
  (∑ k : Fin d, A (ix2 p k) * Wl (ix2 k q)) * Ideal.div one (max (C (ix2 p 0)) one)
    + (∑ k : Fin d, X (ix2 p k) * Wr (ix2 k q)) + B (ix2 0 q)

/-- The reference's arrangement at `(p, q)`: the count and the bias as vectors. -/
def preRAt (A : Mat n d) (C : Vct n) (X : Mat n d) (Wl Wr : Mat d e) (b : Vct e) (p : Fin n) (q : Fin e) : EReal :=
  (∑ k : Fin d, Ideal.div (A (ix2 p k)) (max (C (ix1 p)) one) * Wl (ix2 k q))
    + (∑ k : Fin d, X (ix2 p k) * Wr (ix2 k q)) + b (ix1 q)

/-- The second layer as the kernel arranges it (no activation). -/
def preK (A : Mat n d) (C : Mat n 1) (X : Mat n d) (Wl Wr : Mat d e) (B : Mat 1 e) : Mat n e :=
  fun i => preKAt A C X Wl Wr B (i 0) (i 1)
/-- The first layer as the kernel arranges it: the same, then `max · 0`. -/
def reluK (A : Mat n d) (C : Mat n 1) (X : Mat n d) (Wl Wr : Mat d e) (B : Mat 1 e) : Mat n e :=
  fun i => max (preKAt A C X Wl Wr B (i 0) (i 1)) zero
/-- The second layer as the reference arranges it. -/
def preR (A : Mat n d) (C : Vct n) (X : Mat n d) (Wl Wr : Mat d e) (b : Vct e) : Mat n e :=
  fun i => preRAt A C X Wl Wr b (i 0) (i 1)
/-- The first layer as the reference arranges it. -/
def reluR (A : Mat n d) (C : Vct n) (X : Mat n d) (Wl Wr : Mat d e) (b : Vct e) : Mat n e :=
  fun i => max (preRAt A C X Wl Wr b (i 0) (i 1)) zero

theorem preK_ix2 (A : Mat n d) (C : Mat n 1) (X : Mat n d) (Wl Wr : Mat d e) (B : Mat 1 e) (p : Fin n) (q : Fin e) :
    preK A C X Wl Wr B (ix2 p q) = preKAt A C X Wl Wr B p q := rfl
theorem reluK_ix2 (A : Mat n d) (C : Mat n 1) (X : Mat n d) (Wl Wr : Mat d e) (B : Mat 1 e) (p : Fin n) (q : Fin e) :
    reluK A C X Wl Wr B (ix2 p q) = max (preKAt A C X Wl Wr B p q) zero := rfl
theorem preR_ix2 (A : Mat n d) (C : Vct n) (X : Mat n d) (Wl Wr : Mat d e) (b : Vct e) (p : Fin n) (q : Fin e) :
    preR A C X Wl Wr b (ix2 p q) = preRAt A C X Wl Wr b p q := rfl
theorem reluR_ix2 (A : Mat n d) (C : Vct n) (X : Mat n d) (Wl Wr : Mat d e) (b : Vct e) (p : Fin n) (q : Fin e) :
    reluR A C X Wl Wr b (ix2 p q) = max (preRAt A C X Wl Wr b p q) zero := rfl

end Cert.Sage

end
-- ==== Proof.LibPlainDot.lean ====
/-
  A matrix product with the plain dimension numbers, read at an entry (general in the sizes).

  For a left operand `[R, K]`, a right operand `[K, N]` and a result `[R, N]`, when the left operand contracts
  its second axis, the right one its first, neither has a batch axis, and the result's axes are the left
  operand's rows then the right operand's columns, the sum over the contraction index at the entry `(p, q)` is
  the sum over `k : Fin K` of `l (p, k) * r (k, q)`. Stated once for any such record of dimension numbers, it
  reads a kernel's matrix product into a zero accumulator and a host's general dot product the same way.
-/
import Idealize.ShloMosaic.Lib.ValueIdx
import Idealize.ShloMosaic.PureOps.Ideal.Laws

open scoped BigOperators

namespace Idealize.ShloMosaic.PlainDot

open Idealize.ShloMosaic Idealize.ShloMosaic.ValueIdx

variable {R K N : ℕ}

/-- The dimension numbers of `[R, K] · [K, N] → [R, N]`: one contracted axis each (the left operand's columns, the
    right operand's rows), no batch axes, rows before columns in the result. -/
structure IsPlain (d : DotDims (⟨2, ![R, K]⟩ : Shape) (⟨2, ![K, N]⟩ : Shape) (⟨2, ![R, N]⟩ : Shape)) : Prop where
  lc : d.lhsContracting = [1]
  rc : d.rhsContracting = [0]
  ln : d.lhsNonContracting = [0]
  rn : d.rhsNonContracting = [1]
  lb : d.lhsBatch = []
  rb : d.rhsBatch = []

variable {d : DotDims (⟨2, ![R, K]⟩ : Shape) (⟨2, ![K, N]⟩ : Shape) (⟨2, ![R, N]⟩ : Shape)}

private theorem coord_congr {s : Shape} (j : s.Idx) (a b : ℕ) (ha : a < s.rank) (hb : b < s.rank) (h : a = b) :
    (j ⟨a, ha⟩).val = (j ⟨b, hb⟩).val := by subst h; rfl

/-- The left operand's row is the result's row. -/
theorem lhs_row (h : IsPlain d) (j : (⟨2, ![R, N]⟩ : Shape).Idx) (k : d.contr.Idx) :
    (d.lhsIdx j k (0 : Fin 2)).val = (j (0 : Fin 2)).val := by
  have hb : (0 : Fin 2) ∉ d.lhsBatch := by rw [h.lb]; exact List.not_mem_nil
  have hn : (0 : Fin 2) ∈ d.lhsNonContracting := by rw [h.ln]; exact List.mem_singleton.mpr rfl
  unfold DotDims.lhsIdx
  rw [dif_neg hb, dif_pos hn]
  simp only [Fin.val_cast]
  exact coord_congr j _ _ _ _ (by simp [h.lb, h.ln])

/-- The left operand's column is the contraction coordinate. -/
theorem lhs_col (h : IsPlain d) (j : (⟨2, ![R, N]⟩ : Shape).Idx) (k : d.contr.Idx) :
    (d.lhsIdx j k (1 : Fin 2)).val = (k ⟨0, by rw [d.rank_contr, h.lc]; exact Nat.one_pos⟩).val :=
  d.lhsIdx_val_of_single h.lc j k

/-- The right operand's row is the contraction coordinate. -/
theorem rhs_row (h : IsPlain d) (j : (⟨2, ![R, N]⟩ : Shape).Idx) (k : d.contr.Idx) :
    (d.rhsIdx j k (0 : Fin 2)).val = (k ⟨0, by rw [d.rank_contr, ← d.length_contracting, h.rc]; exact Nat.one_pos⟩).val :=
  d.rhsIdx_val_of_single h.rc j k

/-- The right operand's column is the result's column. -/
theorem rhs_col (h : IsPlain d) (j : (⟨2, ![R, N]⟩ : Shape).Idx) (k : d.contr.Idx) :
    (d.rhsIdx j k (1 : Fin 2)).val = (j (1 : Fin 2)).val := by
  have hb : (1 : Fin 2) ∉ d.rhsBatch := by rw [h.rb]; exact List.not_mem_nil
  have hn : (1 : Fin 2) ∈ d.rhsNonContracting := by rw [h.rn]; exact List.mem_singleton.mpr rfl
  unfold DotDims.rhsIdx
  rw [dif_neg hb, dif_pos hn]
  simp only [Fin.val_cast]
  exact coord_congr j _ _ _ _ (by simp [h.lb, h.ln, h.rn])

theorem contr_rank (h : IsPlain d) : d.contr.rank = 1 := by rw [d.rank_contr, h.lc]; rfl

theorem contr_size (h : IsPlain d) : d.contr.size ⟨0, by rw [contr_rank h]; exact Nat.one_pos⟩ = K := by
  rw [d.size_contr 0 (by rw [h.lc]; exact Nat.one_pos)]
  simp [h.lc]

/-- The contraction sum at the entry `(p, q)`, over the one contracted coordinate. -/
theorem sum_contr (h : IsPlain d) (l : (⟨2, ![R, K]⟩ : Shape).Idx → EReal) (r : (⟨2, ![K, N]⟩ : Shape).Idx → EReal)
    (p : Fin R) (q : Fin N) :
    ∑ k : d.contr.Idx, l (d.lhsIdx (ix2 p q) k) * r (d.rhsIdx (ix2 p q) k) = ∑ k : Fin K, l (ix2 p k) * r (ix2 k q) := by
  rw [← Equiv.sum_comp (contrEquiv1 d K (contr_rank h) (contr_size h)).symm]
  refine Finset.sum_congr rfl fun k _ => ?_
  have hl : d.lhsIdx (ix2 p q) ((contrEquiv1 d K (contr_rank h) (contr_size h)).symm k) = ix2 p k := by
    funext a
    refine Fin.ext ?_
    match a with
    | ⟨0, _⟩ => exact lhs_row h _ _
    | ⟨1, _⟩ => exact (lhs_col h _ _).trans (contrEquiv1_symm_val d K (contr_rank h) (contr_size h) k)
  have hr : d.rhsIdx (ix2 p q) ((contrEquiv1 d K (contr_rank h) (contr_size h)).symm k) = ix2 k q := by
    funext a
    refine Fin.ext ?_
    match a with
    | ⟨0, _⟩ => exact (rhs_row h _ _).trans (contrEquiv1_symm_val d K (contr_rank h) (contr_size h) k)
    | ⟨1, _⟩ => exact rhs_col h _ _
  rw [hl, hr]

/-- A kernel's matrix product into the zero accumulator, at the ideal values, read at `(p, q)`. -/
theorem matmul_zero_apply (h : IsPlain d) (prec : Option ContractPrecision)
    (l : FVec Ideal (⟨2, ![R, K]⟩ : Shape) .f32) (r : FVec Ideal (⟨2, ![K, N]⟩ : Shape) .f32) (p : Fin R) (q : Fin N) :
    FloatOps.matmul d prec l r (constant (⟨2, ![R, N]⟩ : Shape) .f32 0x00000000#32) (ix2 p q)
      = ∑ k : Fin K, l (ix2 p k) * r (ix2 k q) :=
  (Ideal.matmul_constant_zero_apply d prec l r (ix2 p q)).trans (sum_contr h l r p q)

/-- A host's general dot product, at the ideal values, read at `(p, q)`. -/
theorem dotGeneral_apply (h : IsPlain d) (prec : Option ContractPrecision) (sched : HostSchedule)
    (l : FVec Ideal (⟨2, ![R, K]⟩ : Shape) .f32) (r : FVec Ideal (⟨2, ![K, N]⟩ : Shape) .f32) (p : Fin R) (q : Fin N) :
    FloatOps.dotGeneral d prec sched l r (ix2 p q) = ∑ k : Fin K, l (ix2 p k) * r (ix2 k q) :=
  (Ideal.dotGeneral_apply d prec sched l r (ix2 p q)).trans (sum_contr h l r p q)

end Idealize.ShloMosaic.PlainDot
-- ==== Proof.LibColumn.lean ====
/-
  Column forms of two layout operations, read at an index (general in the sizes).

  A vector of `a` entries cast to an `[a, 1]` column and back, and a column broadcast along a new minor
  axis of extent `b`: what a sum with its reduced axis kept, or a per-row value spread over the lanes,
  prints. Each reads the operand at the row's index.
-/
import Idealize.ShloMosaic.Lib.Pipeline.Value
import Idealize.ShloMosaic.Lib.ValueIdx

namespace Idealize.ShloMosaic.ValueLayout

open Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A column `[a, 1]` broadcast to `[a, b]` reads, at `(i, l)`, the operand at `(i, 0)`, for `1 < a`. -/
theorem broadcastTo_a1_ab_apply {a b : ℕ} (ha : a ≠ 1) (v : (⟨2, ![a, 1]⟩ : Shape).Idx → α)
    (h : (⟨2, ![a, 1]⟩ : Shape).Broadcasts ⟨2, ![a, b]⟩) (i : Fin a) (l : Fin b) :
    broadcastTo ⟨2, ![a, b]⟩ v h (ix2 i l) = v (ix2 i (0 : Fin 1)) :=
  broadcastTo_apply v h _ _ (fun d => by
    match d with
    | ⟨0, _⟩ => show i.val = if a = 1 then 0 else i.val; rw [if_neg ha]
    | ⟨1, _⟩ => show (0 : ℕ) = if (1 : ℕ) = 1 then 0 else l.val; rw [if_pos rfl])

end Idealize.ShloMosaic.ValueLayout
-- ==== Proof.KValue0.lean ====
/-
  The first pallas_call's output array, entry by entry.

  The call walks the 100000 nodes in 20 blocks of 5000 rows. At block `t` the body reads rows `5000 t … 5000 t + 4999`
  of the neighbour sums, of the in-degree column and of the features, the two whole weight matrices and the bias row,
  and stores one 5000 x 128 block: the two matrix products, the first scaled row by row by `1 / max (degree) 1`, their
  sum plus the bias, clamped below at zero. Entry `(r, q)` of the block depends only on row `r` of the block's inputs,
  so it is entry `(5000 t + r, q)` of `Cert.Sage.reluK` of the whole arrays; the 20 blocks tile the array.
-/
import proofs.«160734_j12781822673112_1_alg».proof.Proof.Gen.KernelIdeal.Frame
import proofs.«160734_j12781822673112_1_alg».proof.Proof.Spec
import proofs.«160734_j12781822673112_1_alg».proof.Proof.LibPlainDot
import proofs.«160734_j12781822673112_1_alg».proof.Proof.LibColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KVal0

open Cert.KernelIdeal Cert.KernelIdeal.Gen Idealize.ShloMosaic Idealize.ShloMosaic.TcCoe Idealize.ShloMosaic.ValueIdx Idealize.SL.Sem
open Idealize.ShloMosaic.Pipeline (Dat Cfg Window)
open scoped BigOperators

/-! ## The body's stored block, entry by entry -/

/-- The dimension numbers of both matrix products are the plain ones: rows by columns, no batch axis. -/
theorem plain0 : PlainDot.IsPlain dot_S5000x128_S128x128_S5000x128_1_0_0_1_n_n := ⟨rfl, rfl, rfl, rfl, rfl, rfl⟩

/-- A block's matrix product into the zero accumulator, at an entry: the sum over the 128 contracted channels. -/
theorem mm_apply (l : FVec Ideal S5000x128 .f32) (w : FVec Ideal S128x128 .f32) (r : Fin 5000) (q : Fin 128) :
    matmul (F := Ideal) dot_S5000x128_S128x128_S5000x128_1_0_0_1_n_n none l w (constant (F := Ideal) S5000x128 .f32 0x00000000#32) (ix2 r q)
      = ∑ k : Fin 128, l (ix2 r k) * w (ix2 k q) :=
  PlainDot.matmul_zero_apply plain0 none l w r q

/-- The body's stored value at entry `(r, q)` of a block: the kernel's arrangement of the layer on the block's own
    rows, clamped below at zero. The column `1 / max (degree) 1` is spread along the channels and the bias row along
    the rows, so entry `(r, q)` sees the degree of row `r` and the bias of channel `q`. -/
theorem pay_apply (x0 x2 : Vec Ideal S5000x128 .f32) (x3 x4 : Vec Ideal S128x128 .f32)
    (x1 : Vec Ideal S5000x1 .f32) (x5 : Vec Ideal S1x128 .f32) (r : Fin 5000) (q : Fin 128) :
    k0_pay1 x0 x2 x3 x4 x1 x5 (ix2 r q) = max (Cert.Sage.preKAt x0 x1 x2 x3 x4 x5 r q) Cert.Sage.zero := by
  unfold k0_pay1
  simp only [shapeCast_self]
  rw [maximumf_apply, addf_apply, addf_apply, mulf_apply, mm_apply, mm_apply]
  rw [ValueLayout.broadcastTo_a1_ab_apply (by decide), broadcastTo_1b_ab_apply]
  rfl

/-- So the stored block is the layer of the block's inputs. -/
theorem pay_eq (x0 x2 : Vec Ideal S5000x128 .f32) (x3 x4 : Vec Ideal S128x128 .f32)
    (x1 : Vec Ideal S5000x1 .f32) (x5 : Vec Ideal S1x128 .f32) :
    k0_pay1 x0 x2 x3 x4 x1 x5 = Cert.Sage.reluK x0 x1 x2 x3 x4 x5 := by
  funext j
  obtain ⟨r, q, rfl⟩ : ∃ (r : Fin 5000) (q : Fin 128), j = ix2 r q := ⟨j 0, j 1, eq_ix2 j⟩
  exact pay_apply x0 x2 x3 x4 x1 x5 r q

/-! ## The windows' blocks as rows of their arrays -/

-- the TensorCore's buffer contents when the region is entered: a parameter, as in the generated frame
variable (V : (c : Dev nD) → (b : Ref sig .tc) → Buf (Elt Ideal) ((c : Thread nD τ).loc b))

/-- The body's loads and its store start at the block's corner. -/
theorem hz : (![0, 0] : Fin 2 → Nat) = fun _ => 0 := funext fun a => by fin_cases a <;> rfl

/-- The printed index maps over the 20 grid points: the three row-blocked inputs and the output sit at block
    `(t, 0)`, the two weight matrices and the bias row at block `(0, 0)`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- The grid has 20 points. -/
theorem t_lt (t : Fin cfg0.N) : t.val < 20 := Nat.lt_of_lt_of_eq t.isLt N_0

/-- The neighbour-sum block at point `t` is rows `5000 t … 5000 t + 4999` of its array. -/
theorem blk0_apply (c : Dev nD) (t : Fin cfg0.N) (y : S5000x128.Idx) (i : S100000x128.Idx)
    (h0 : (i 0).val = 5000 * t.val + (y 0).val) (h1 : (i 1).val = (y 1).val) :
    (iblk0 V c 0 t : Vec Ideal S5000x128 .f32) y = (V c main_v13 : S100000x128.Idx → EReal) i := by
  obtain ⟨e0, e1, -⟩ := idx_facts t
  unfold iblk0
  rw [View.read_apply]
  show V c main_v13 _ = V c main_v13 _
  congr 1
  funext a
  apply Fin.ext
  match a with
  | ⟨0, _⟩ => show win0_0.index t (0 : Fin 2) * 5000 + 1 * (y 0).val = (i 0).val; rw [e0, h0]; omega
  | ⟨1, _⟩ => show win0_0.index t (1 : Fin 2) * 128 + 1 * (y 1).val = (i 1).val; rw [e1, h1]; omega

/-- The in-degree column's block at point `t` is rows `5000 t … 5000 t + 4999` of the column. -/
theorem blk1_apply (c : Dev nD) (t : Fin cfg0.N) (y : S5000x1.Idx) (i : S100000x1.Idx)
    (h0 : (i 0).val = 5000 * t.val + (y 0).val) (h1 : (i 1).val = (y 1).val) :
    (iblk0 V c 1 t : Vec Ideal S5000x1 .f32) y = (V c main_v18 : S100000x1.Idx → EReal) i := by
  obtain ⟨-, -, e0, e1, -⟩ := idx_facts t
  unfold iblk0
  rw [View.read_apply]
  show V c main_v18 _ = V c main_v18 _
  congr 1
  funext a
  apply Fin.ext
  match a with
  | ⟨0, _⟩ => show win0_1.index t (0 : Fin 2) * 5000 + 1 * (y 0).val = (i 0).val; rw [e0, h0]; omega
  | ⟨1, _⟩ => show win0_1.index t (1 : Fin 2) * 1 + 1 * (y 1).val = (i 1).val; rw [e1, h1]; omega

/-- The feature block at point `t` is rows `5000 t … 5000 t + 4999` of the features. -/
theorem blk2_apply (c : Dev nD) (t : Fin cfg0.N) (y : S5000x128.Idx) (i : S100000x128.Idx)
    (h0 : (i 0).val = 5000 * t.val + (y 0).val) (h1 : (i 1).val = (y 1).val) :
    (iblk0 V c 2 t : Vec Ideal S5000x128 .f32) y = (V c main_arg0 : S100000x128.Idx → EReal) i := by
  obtain ⟨-, -, -, -, e0, e1, -⟩ := idx_facts t
  unfold iblk0
  rw [View.read_apply]
  show V c main_arg0 _ = V c main_arg0 _
  congr 1
  funext a
  apply Fin.ext
  match a with
  | ⟨0, _⟩ => show win0_2.index t (0 : Fin 2) * 5000 + 1 * (y 0).val = (i 0).val; rw [e0, h0]; omega
  | ⟨1, _⟩ => show win0_2.index t (1 : Fin 2) * 128 + 1 * (y 1).val = (i 1).val; rw [e1, h1]; omega

/-- The left weights' block is the whole matrix at every point. -/
theorem blk3_eq (c : Dev nD) (t : Fin cfg0.N) :
    (iblk0 V c 3 t : Vec Ideal S128x128 .f32) = (V c main_arg2 : S128x128.Idx → EReal) := by
  obtain ⟨-, -, -, -, -, -, e0, e1, -⟩ := idx_facts t
  funext y
  unfold iblk0
  rw [View.read_apply]
  show V c main_arg2 _ = V c main_arg2 y
  congr 1
  funext a
  apply Fin.ext
  match a with
  | ⟨0, _⟩ => show win0_3.index t (0 : Fin 2) * 128 + 1 * (y 0).val = (y 0).val; rw [e0]; omega
  | ⟨1, _⟩ => show win0_3.index t (1 : Fin 2) * 128 + 1 * (y 1).val = (y 1).val; rw [e1]; omega

/-- The right weights' block is the whole matrix at every point. -/
theorem blk4_eq (c : Dev nD) (t : Fin cfg0.N) :
    (iblk0 V c 4 t : Vec Ideal S128x128 .f32) = (V c main_arg3 : S128x128.Idx → EReal) := by
  obtain ⟨-, -, -, -, -, -, -, -, e0, e1, -⟩ := idx_facts t
  funext y
  unfold iblk0
  rw [View.read_apply]
  show V c main_arg3 _ = V c main_arg3 y
  congr 1
  funext a
  apply Fin.ext
  match a with
  | ⟨0, _⟩ => show win0_4.index t (0 : Fin 2) * 128 + 1 * (y 0).val = (y 0).val; rw [e0]; omega
  | ⟨1, _⟩ => show win0_4.index t (1 : Fin 2) * 128 + 1 * (y 1).val = (y 1).val; rw [e1]; omega

/-- The bias row's block is the whole row at every point. -/
theorem blk5_eq (c : Dev nD) (t : Fin cfg0.N) :
    (iblk0 V c 5 t : Vec Ideal S1x128 .f32) = (V c main_v19 : S1x128.Idx → EReal) := by
  obtain ⟨-, -, -, -, -, -, -, -, -, -, e0, e1, -⟩ := idx_facts t
  funext y
  unfold iblk0
  rw [View.read_apply]
  show V c main_v19 _ = V c main_v19 y
  congr 1
  funext a
  apply Fin.ext
  match a with
  | ⟨0, _⟩ => show win0_5.index t (0 : Fin 2) * 1 + 1 * (y 0).val = (y 0).val; rw [e0]; omega
  | ⟨1, _⟩ => show win0_5.index t (1 : Fin 2) * 128 + 1 * (y 1).val = (y 1).val; rw [e1]; omega

/-- An entry of the output's block at point `t` sits at row `5000 t + r` of the output array. -/
theorem emb6 (t : Fin cfg0.N) (j : S5000x128.Idx) (i : S100000x128.Idx)
    (h0 : (i 0).val = 5000 * t.val + (j 0).val) (h1 : (i 1).val = (j 1).val) :
    (((cfg0.win 6).blk t).view.emb j : S100000x128.Idx) = i := by
  obtain ⟨-, -, -, -, -, -, -, -, -, -, -, -, e0, e1⟩ := idx_facts t
  funext a
  apply Fin.ext
  match a with
  | ⟨0, _⟩ => show win0_6.index t (0 : Fin 2) * 5000 + 1 * (j 0).val = (i 0).val; rw [e0, h0]; omega
  | ⟨1, _⟩ => show win0_6.index t (1 : Fin 2) * 128 + 1 * (j 1).val = (i 1).val; rw [e1, h1]; omega

/-- The layer depends on its row only: if three 5000-row arrays are rows `5000 s … 5000 s + 4999` of the whole
    arrays, the layer of the small arrays at row `r` is the layer of the whole arrays at row `5000 s + r`. -/
theorem reluK_rows (A : Cert.Sage.Mat 100000 128) (C : Cert.Sage.Mat 100000 1) (X : Cert.Sage.Mat 100000 128)
    (Wl Wr : Cert.Sage.Mat 128 128) (B : Cert.Sage.Mat 1 128)
    (a : Cert.Sage.Mat 5000 128) (cc : Cert.Sage.Mat 5000 1) (x : Cert.Sage.Mat 5000 128) (s : ℕ) (hs : s < 20)
    (ha : ∀ (r : Fin 5000) (k : Fin 128), a (ix2 r k) = A (ix2 ⟨5000 * s + r.val, by omega⟩ k))
    (hc : ∀ (r : Fin 5000), cc (ix2 r 0) = C (ix2 ⟨5000 * s + r.val, by omega⟩ 0))
    (hx : ∀ (r : Fin 5000) (k : Fin 128), x (ix2 r k) = X (ix2 ⟨5000 * s + r.val, by omega⟩ k))
    (r : Fin 5000) (q : Fin 128) :
    Cert.Sage.reluK a cc x Wl Wr B (ix2 r q) = Cert.Sage.reluK A C X Wl Wr B (ix2 ⟨5000 * s + r.val, by omega⟩ q) := by
  rw [Cert.Sage.reluK_ix2, Cert.Sage.reluK_ix2]
  unfold Cert.Sage.preKAt
  simp only [ha, hc, hx]

/-! ## From the blocks to the array -/

/-- WHAT POINT `t` WRITES BACK is block `t` of the layer of the whole arrays. -/
theorem flushed_eq (c : Dev nD) (t : Fin cfg0.N) :
    (dat0 (F := Ideal) V c).flushed 6 t = ((cfg0.win 6).blk t).view.read (Elt Ideal)
      (Cert.Sage.reluK (V c main_v13) (V c main_v18) (V c main_arg0) (V c main_arg2) (V c main_arg3) (V c main_v19)) := by
  show (cfg0.win 6).cut (grid0.coords t) ((dat0 V c).after 6 t) = _
  rw [after0_6]
  unfold out0_6
  rw [View.canon_unit_zero hz]
  simp only [View.ld_unit_zero (S := S5000x128) hz, View.ld_unit_zero (S := S128x128) hz,
    View.ld_unit_zero (S := S5000x1) hz, View.ld_unit_zero (S := S1x128) hz]
  rw [pay_eq, blk3_eq, blk4_eq, blk5_eq]
  funext j
  obtain ⟨r, q, rfl⟩ : ∃ (r : Fin 5000) (q : Fin 128), j = ix2 r q := ⟨j 0, j 1, eq_ix2 j⟩
  have ht := t_lt t
  show Cert.Sage.reluK (iblk0 V c 0 t) (iblk0 V c 1 t) (iblk0 V c 2 t) (V c main_arg2) (V c main_arg3) (V c main_v19) (ix2 r q)
    = Cert.Sage.reluK (V c main_v13) (V c main_v18) (V c main_arg0) (V c main_arg2) (V c main_arg3) (V c main_v19)
        (((cfg0.win 6).blk t).view.emb (ix2 r q))
  rw [emb6 t (ix2 r q) (ix2 ⟨5000 * t.val + r.val, by omega⟩ q) rfl rfl]
  exact reluK_rows _ _ _ _ _ _ _ _ _ t.val ht
    (fun r k => blk0_apply V c t (ix2 r k) _ rfl rfl)
    (fun r => blk1_apply V c t (ix2 r 0) _ rfl rfl)
    (fun r k => blk2_apply V c t (ix2 r k) _ rfl rfl) r q

/-- An index of the output array is in point `t`'s block iff each coordinate is in the block's range on its axis. -/
theorem mem_blk (t : Fin cfg0.N) (i : S100000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v20).slice (win0_6.rect t)).set ↔ _
  rw [View.set_slice_whole, Rect.mem_set_unit]
  exact Iff.rfl

/-- The 20 blocks tile the array: row `p` is in the block of point `p / 5000`. -/
theorem cover (i : S100000x128.Idx) :
    ∃ t : Fin cfg0.N, (cfg0.win 6).flush t = true ∧ i ∈ ((cfg0.win 6).blk t).view.set := by
  have hi0 : (i 0).val < 100000 := idx2_lt0 i
  have hi1 : (i 1).val < 128 := idx2_lt1 i
  have hq : (i 0).val / 5000 < 20 := by omega
  refine ⟨⟨(i 0).val / 5000, Nat.lt_of_lt_of_eq hq N_0.symm⟩, flush0_6 _, ?_⟩
  rw [mem_blk]
  obtain ⟨-, -, -, -, -, -, -, -, -, -, -, -, e0, e1⟩ := idx_facts ⟨(i 0).val / 5000, Nat.lt_of_lt_of_eq hq N_0.symm⟩
  intro a
  match a with
  | ⟨0, _⟩ =>
    show win0_6.index _ (0 : Fin 2) * 5000 ≤ (i 0).val ∧ (i 0).val < win0_6.index _ (0 : Fin 2) * 5000 + 5000
    rw [e0]
    show (i 0).val / 5000 * 5000 ≤ (i 0).val ∧ (i 0).val < (i 0).val / 5000 * 5000 + 5000
    omega
  | ⟨1, _⟩ =>
    show win0_6.index _ (1 : Fin 2) * 128 ≤ (i 1).val ∧ (i 1).val < win0_6.index _ (1 : Fin 2) * 128 + 128
    rw [e1]
    omega

/-- THE ARRAY the first call leaves: `reluK` of the arrays its windows read, as the region finds them. -/
theorem final0 (c : Dev nD) :
    (dat0 (F := Ideal) V c).arrAt 6 cfg0.N
      = Cert.Sage.reluK (V c main_v13) (V c main_v18) (V c main_arg0) (V c main_arg2) (V c main_arg3) (V c main_v19) := by
  exact (dat0 (F := Ideal) V c).arrAt_eq_of_cover 6 _ (fun t _ => flushed_eq V c t) cover

end Cert.KernelIdeal.KVal0

end
-- ==== Proof.KValue1.lean ====
/-
  The second pallas_call's output array, entry by entry.

  The call walks the 100000 nodes in 20 blocks of 5000 rows. At block `t` the body reads rows `5000 t … 5000 t + 4999`
  of the hidden features' neighbour sums, of the in-degree column and of the hidden features, the two whole 128 x 64
  weight matrices and the bias row, and stores one 5000 x 64 block: the two matrix products, the first scaled row by
  row by `1 / max (degree) 1`, their sum plus the bias. Entry `(r, q)` of the block depends only on row `r` of the block's
  inputs, so it is entry `(5000 t + r, q)` of `Cert.Sage.preK` of the whole arrays; the 20 blocks tile the array.
-/
import proofs.«160734_j12781822673112_1_alg».proof.Proof.Gen.KernelIdeal.Frame
import proofs.«160734_j12781822673112_1_alg».proof.Proof.Spec
import proofs.«160734_j12781822673112_1_alg».proof.Proof.LibPlainDot
import proofs.«160734_j12781822673112_1_alg».proof.Proof.LibColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KVal1

open Cert.KernelIdeal Cert.KernelIdeal.Gen Idealize.ShloMosaic Idealize.ShloMosaic.TcCoe Idealize.ShloMosaic.ValueIdx Idealize.SL.Sem
open Idealize.ShloMosaic.Pipeline (Dat Cfg Window)
open scoped BigOperators

-- the TensorCore's buffer contents when the region is entered: a parameter, as in the generated frame
variable (V : (c : Dev nD) → (b : Ref sig .tc) → Buf (Elt Ideal) ((c : Thread nD τ).loc b))

/-! ## One entry of the stored block -/

/-- Both matrix products contract the left operand's columns against the right operand's rows, with no batch axis. -/
theorem plainDot : PlainDot.IsPlain dot_S5000x128_S128x64_S5000x64_1_0_0_1_n_n := ⟨rfl, rfl, rfl, rfl, rfl, rfl⟩

/-- Entry `(r, q)` of the block the body stores, over any six input blocks: the row-`r` product with the left weights
    times `1 / max (degree r) 1`, plus the row-`r` product with the right weights, plus the bias at `q`. Each matrix
    product into the zero accumulator is the plain sum over the 128 contracted positions; the degree column, one entry
    per row, is spread along the 64 lanes, and the bias, one row, along the 5000 rows. -/
theorem pay1_apply (x0 x2 : Vec Ideal S5000x128 .f32) (x3 x4 : Vec Ideal S128x64 .f32) (x1 : Vec Ideal S5000x1 .f32)
    (x5 : Vec Ideal S1x64 .f32) (r : Fin 5000) (q : Fin 64) :
    k1_pay1 (F := Ideal) x0 x2 x3 x4 x1 x5 (ix2 r q) = Cert.Sage.preKAt x0 x1 x2 x3 x4 x5 r q := by
  have h1 : Idealize.ShloMosaic.matmul (F := Ideal) dot_S5000x128_S128x64_S5000x64_1_0_0_1_n_n none x0 x3
        (constant (F := Ideal) S5000x64 .f32 0x00000000#32) (ix2 r q)
      = ∑ k : Fin 128, x0 (ix2 r k) * x3 (ix2 k q) := PlainDot.matmul_zero_apply plainDot none x0 x3 r q
  have h2 : Idealize.ShloMosaic.matmul (F := Ideal) dot_S5000x128_S128x64_S5000x64_1_0_0_1_n_n none x2 x4
        (constant (F := Ideal) S5000x64 .f32 0x00000000#32) (ix2 r q)
      = ∑ k : Fin 128, x2 (ix2 r k) * x4 (ix2 k q) := PlainDot.matmul_zero_apply plainDot none x2 x4 r q
  unfold k1_pay1 Cert.Sage.preKAt
  simp only [shapeCast_self]
  rw [addf_apply, addf_apply, mulf_apply, h1, h2,
    ValueLayout.broadcastTo_a1_ab_apply (by decide), broadcastTo_1b_ab_apply]
  rfl

/-- The layer's entry `(p, q)` reads its three row-wise operands only along row `p`: if row `r` of three blocks is
    row `p` of three arrays, the entry over the blocks at `(r, q)` is the entry over the arrays at `(p, q)`. -/
theorem preKAt_rows (A : Vec Ideal S5000x128 .f32) (A' : Vec Ideal S100000x128 .f32)
    (C : Vec Ideal S5000x1 .f32) (C' : Vec Ideal S100000x1 .f32)
    (X : Vec Ideal S5000x128 .f32) (X' : Vec Ideal S100000x128 .f32)
    (Wl Wr : Vec Ideal S128x64 .f32) (B : Vec Ideal S1x64 .f32) (r : Fin 5000) (p : Fin 100000) (q : Fin 64)
    (hA : ∀ k : Fin 128, A (ix2 r k) = A' (ix2 p k)) (hC : C (ix2 r (0 : Fin 1)) = C' (ix2 p (0 : Fin 1)))
    (hX : ∀ k : Fin 128, X (ix2 r k) = X' (ix2 p k)) :
    Cert.Sage.preKAt A C X Wl Wr B r q = Cert.Sage.preKAt A' C' X' Wl Wr B p q := by
  unfold Cert.Sage.preKAt
  simp only [hA, hC, hX]

/-! ## Where each window's block sits in its array -/

theorem hz : (![0, 0] : Fin 2 → Nat) = fun _ => 0 := funext fun a => by fin_cases a <;> rfl

/-- The block indices at grid point `t`: the three row-wise inputs and the output are at block `(t, 0)`, the two weight
    matrices and the bias row at block `(0, 0)`, which is all of them. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Row `x 0` of the neighbour sums' block at point `t` is row `5000 t + x 0` of the array. -/
theorem iblk0_apply (c : Dev nD) (t : Fin cfg1.N) (x : S5000x128.Idx) (k : S100000x128.Idx)
    (hk0 : (k 0).val = 5000 * t.val + (x 0).val) (hk1 : (k 1).val = (x 1).val) :
    (iblk1 V c 0 t : Vec Ideal S5000x128 .f32) x = (V c main_v30 : S100000x128.Idx → EReal) k := by
  obtain ⟨e0, e1, -⟩ := idx_facts t
  unfold iblk1
  rw [View.read_apply]
  show V c main_v30 _ = V c main_v30 _
  congr 1
  funext a
  apply Fin.ext
  match a with
  | ⟨0, _⟩ => show win1_0.index t 0 * 5000 + 1 * (x 0).val = (k 0).val; rw [e0, hk0]; omega
  | ⟨1, _⟩ => show win1_0.index t 1 * 128 + 1 * (x 1).val = (k 1).val; rw [e1, hk1]; omega

/-- Row `x 0` of the in-degree column's block at point `t` is row `5000 t + x 0` of the column. -/
theorem iblk1_apply (c : Dev nD) (t : Fin cfg1.N) (x : S5000x1.Idx) (k : S100000x1.Idx)
    (hk0 : (k 0).val = 5000 * t.val + (x 0).val) (hk1 : (k 1).val = (x 1).val) :
    (iblk1 V c 1 t : Vec Ideal S5000x1 .f32) x = (V c main_v31 : S100000x1.Idx → EReal) k := by
  obtain ⟨-, -, e0, e1, -⟩ := idx_facts t
  unfold iblk1
  rw [View.read_apply]
  show V c main_v31 _ = V c main_v31 _
  congr 1
  funext a
  apply Fin.ext
  match a with
  | ⟨0, _⟩ => show win1_1.index t 0 * 5000 + 1 * (x 0).val = (k 0).val; rw [e0, hk0]; omega
  | ⟨1, _⟩ => show win1_1.index t 1 * 1 + 1 * (x 1).val = (k 1).val; rw [e1, hk1]; omega

/-- Row `x 0` of the hidden features' block at point `t` is row `5000 t + x 0` of the array. -/
theorem iblk2_apply (c : Dev nD) (t : Fin cfg1.N) (x : S5000x128.Idx) (k : S100000x128.Idx)
    (hk0 : (k 0).val = 5000 * t.val + (x 0).val) (hk1 : (k 1).val = (x 1).val) :
    (iblk1 V c 2 t : Vec Ideal S5000x128 .f32) x = (V c main_v20 : S100000x128.Idx → EReal) k := by
  obtain ⟨-, -, -, -, e0, e1, -⟩ := idx_facts t
  unfold iblk1
  rw [View.read_apply]
  show V c main_v20 _ = V c main_v20 _
  congr 1
  funext a
  apply Fin.ext
  match a with
  | ⟨0, _⟩ => show win1_2.index t 0 * 5000 + 1 * (x 0).val = (k 0).val; rw [e0, hk0]; omega
  | ⟨1, _⟩ => show win1_2.index t 1 * 128 + 1 * (x 1).val = (k 1).val; rw [e1, hk1]; omega

/-- The left weights' block is the whole matrix, at every point. -/
theorem iblk3_eq (c : Dev nD) (t : Fin cfg1.N) :
    (iblk1 V c 3 t : Vec Ideal S128x64 .f32) = (V c main_arg5 : S128x64.Idx → EReal) := by
  obtain ⟨-, -, -, -, -, -, e0, e1, -⟩ := idx_facts t
  funext x
  unfold iblk1
  rw [View.read_apply]
  show V c main_arg5 _ = V c main_arg5 x
  congr 1
  funext a
  apply Fin.ext
  match a with
  | ⟨0, _⟩ => show win1_3.index t 0 * 128 + 1 * (x 0).val = (x 0).val; rw [e0]; omega
  | ⟨1, _⟩ => show win1_3.index t 1 * 64 + 1 * (x 1).val = (x 1).val; rw [e1]; omega

/-- The right weights' block is the whole matrix, at every point. -/
theorem iblk4_eq (c : Dev nD) (t : Fin cfg1.N) :
    (iblk1 V c 4 t : Vec Ideal S128x64 .f32) = (V c main_arg6 : S128x64.Idx → EReal) := by
  obtain ⟨-, -, -, -, -, -, -, -, e0, e1, -⟩ := idx_facts t
  funext x
  unfold iblk1
  rw [View.read_apply]
  show V c main_arg6 _ = V c main_arg6 x
  congr 1
  funext a
  apply Fin.ext
  match a with
  | ⟨0, _⟩ => show win1_4.index t 0 * 128 + 1 * (x 0).val = (x 0).val; rw [e0]; omega
  | ⟨1, _⟩ => show win1_4.index t 1 * 64 + 1 * (x 1).val = (x 1).val; rw [e1]; omega

/-- The bias's block is the whole row, at every point. -/
theorem iblk5_eq (c : Dev nD) (t : Fin cfg1.N) :
    (iblk1 V c 5 t : Vec Ideal S1x64 .f32) = (V c main_v32 : S1x64.Idx → EReal) := by
  obtain ⟨-, -, -, -, -, -, -, -, -, -, e0, e1, -⟩ := idx_facts t
  funext x
  unfold iblk1
  rw [View.read_apply]
  show V c main_v32 _ = V c main_v32 x
  congr 1
  funext a
  apply Fin.ext
  match a with
  | ⟨0, _⟩ => show win1_5.index t 0 * 1 + 1 * (x 0).val = (x 0).val; rw [e0]; omega
  | ⟨1, _⟩ => show win1_5.index t 1 * 64 + 1 * (x 1).val = (x 1).val; rw [e1]; omega

/-! ## What a point writes back, and the blocks' cover -/

/-- WHAT POINT `t` WRITES BACK is block `t` of the layer over the whole arrays: entry `(r, q)` of the stored block is
    the layer's entry over the input blocks, whose row `r` is row `5000 t + r` of the arrays, and the output's block
    puts that entry at `(5000 t + r, q)`. -/
theorem flushed_eq (c : Dev nD) (t : Fin cfg1.N) :
    (dat1 (F := Ideal) V c).flushed 6 t = ((cfg1.win 6).blk t).view.read (Elt Ideal)
      (Cert.Sage.preK (V c main_v30) (V c main_v31) (V c main_v20) (V c main_arg5) (V c main_arg6) (V c main_v32)) := by
  show (cfg1.win 6).cut (grid1.coords t) ((dat1 V c).after 6 t) = _
  rw [after1_6]
  unfold out1_6
  rw [View.canon_unit_zero hz]
  simp only [View.ld_unit_zero (S := S5000x128) hz, View.ld_unit_zero (S := S128x64) hz,
    View.ld_unit_zero (S := S5000x1) hz, View.ld_unit_zero (S := S1x64) hz]
  funext j
  obtain ⟨r, q, rfl⟩ : ∃ (r : Fin 5000) (q : Fin 64), j = ix2 r q := ⟨j 0, j 1, eq_ix2 j⟩
  have ht : t.val < 20 := Nat.lt_of_lt_of_eq t.isLt (show cfg1.N = 20 from N_1)
  have hr : r.val < 5000 := r.isLt
  obtain ⟨-, -, -, -, -, -, -, -, -, -, -, -, e0, e1⟩ := idx_facts t
  have hemb : ((cfg1.win 6).blk t).view.emb (ix2 r q)
      = (ix2 (⟨5000 * t.val + r.val, by omega⟩ : Fin 100000) q : S100000x64.Idx) := by
    funext a
    apply Fin.ext
    match a with
    | ⟨0, _⟩ => show win1_6.index t 0 * 5000 + 1 * r.val = 5000 * t.val + r.val; rw [e0]; omega
    | ⟨1, _⟩ => show win1_6.index t 1 * 64 + 1 * q.val = q.val; rw [e1]; omega
  show k1_pay1 (F := Ideal) (iblk1 V c 0 t) (iblk1 V c 2 t) (iblk1 V c 3 t) (iblk1 V c 4 t) (iblk1 V c 1 t) (iblk1 V c 5 t) (ix2 r q)
    = Cert.Sage.preK (V c main_v30) (V c main_v31) (V c main_v20) (V c main_arg5) (V c main_arg6) (V c main_v32)
        (((cfg1.win 6).blk t).view.emb (ix2 r q))
  refine (pay1_apply (iblk1 V c 0 t) (iblk1 V c 2 t) (iblk1 V c 3 t) (iblk1 V c 4 t) (iblk1 V c 1 t) (iblk1 V c 5 t) r q).trans ?_
  rw [hemb, Cert.Sage.preK_ix2, iblk3_eq V c t, iblk4_eq V c t, iblk5_eq V c t]
  exact preKAt_rows (iblk1 V c 0 t) (V c main_v30) (iblk1 V c 1 t) (V c main_v31) (iblk1 V c 2 t) (V c main_v20)
    (V c main_arg5) (V c main_arg6) (V c main_v32) r ⟨5000 * t.val + r.val, by omega⟩ q
    (fun k => iblk0_apply V c t (ix2 r k) (ix2 ⟨5000 * t.val + r.val, by omega⟩ k) rfl rfl)
    (iblk1_apply V c t (ix2 r 0) (ix2 ⟨5000 * t.val + r.val, by omega⟩ 0) rfl rfl)
    (fun k => iblk2_apply V c t (ix2 r k) (ix2 ⟨5000 * t.val + r.val, by omega⟩ k) rfl rfl)

/-- An index of the output array is in point `t`'s block iff each coordinate is in the block's range on its axis. -/
theorem mem_blk (t : Fin cfg1.N) (i : S100000x64.Idx) :
    i ∈ ((cfg1.win 6).blk t).view.set ↔ ∀ a : Fin 2, win1_6.index t a * S5000x64.size a ≤ (i a).val
      ∧ (i a).val < win1_6.index t a * S5000x64.size a + S5000x64.size a := by
  show i ∈ ((View.whole main_v33).slice (win1_6.rect t)).set ↔ _
  rw [View.set_slice_whole, Rect.mem_set_unit]
  exact Iff.rfl

/-- The 20 blocks of 5000 rows tile the 100000 rows: row `p` is in the block of point `p / 5000`, which is written back. -/
theorem cover (i : S100000x64.Idx) :
    ∃ t : Fin cfg1.N, (cfg1.win 6).flush t = true ∧ i ∈ ((cfg1.win 6).blk t).view.set := by
  have hi0 : (i 0).val < 100000 := (i 0).isLt
  have hi1 : (i 1).val < 64 := (i 1).isLt
  obtain ⟨t, ht⟩ : ∃ t : Fin cfg1.N, t.val = (i 0).val / 5000 :=
    ⟨⟨(i 0).val / 5000, Nat.lt_of_lt_of_eq (by omega) (show cfg1.N = 20 from N_1).symm⟩, rfl⟩
  obtain ⟨-, -, -, -, -, -, -, -, -, -, -, -, e0, e1⟩ := idx_facts t
  refine ⟨t, flush1_6 t, ?_⟩
  rw [mem_blk]
  intro a
  match a with
  | ⟨0, _⟩ =>
    show win1_6.index t 0 * 5000 ≤ (i 0).val ∧ (i 0).val < win1_6.index t 0 * 5000 + 5000
    rw [e0, ht]; omega
  | ⟨1, _⟩ =>
    show win1_6.index t 1 * 64 ≤ (i 1).val ∧ (i 1).val < win1_6.index t 1 * 64 + 64
    rw [e1]; omega

/-- THE ARRAY the second call leaves: `preK` of the arrays its windows read, as the region finds them. -/
theorem final1 (c : Dev nD) :
    (dat1 (F := Ideal) V c).arrAt 6 cfg1.N
      = Cert.Sage.preK (V c main_v30) (V c main_v31) (V c main_v20) (V c main_arg5) (V c main_arg6) (V c main_v32) :=
  (dat1 (F := Ideal) V c).arrAt_eq_of_cover 6 _ (fun t _ => flushed_eq V c t) cover

end Cert.KernelIdeal.KVal1

end
-- ==== Proof.RefValue.lean ====
/-
  The reference's result, layer by layer.

  The reference's run ends at one long composed term. Read one operation at a time it is two SAGE layers in the
  reference's arrangement (`Cert.Sage.reluR`, `Cert.Sage.preR`): the neighbour sums `agg` (the rows of the features
  gathered at the edges' sources and added up at their targets), the in-degree `val_main_v17` (ones added up at the
  targets), the quotient by `max (degree) 1` before the product with the left weights, the product of the features with
  the right weights, the bias. The gather and the two scatters are never opened: they are the same functions on the
  kernel's side.
-/
import proofs.«160734_j12781822673112_1_alg».proof.Proof.Gen.ReferenceIdeal.Read
import proofs.«160734_j12781822673112_1_alg».proof.Proof.Spec
import Idealize.ShloMosaic.Lib.ValueIdx
import Idealize.ShloMosaic.PureOps.Ideal.Laws

noncomputable section

namespace Cert.ReferenceIdeal.RefVal

open Cert.ReferenceIdeal Cert.ReferenceIdeal.Gen Cert.ReferenceIdeal.Read Idealize.ShloMosaic Idealize.ShloMosaic.TcCoe Idealize.ShloMosaic.ValueIdx
open scoped BigOperators

/-- The neighbour sums of the features `h` along the edge list `e`: row `e[0, j]` of `h` (a negative index taken
    from the end) added into row `e[1, j]`, over all edges `j`, from zero. -/
def agg (h : FVec Ideal S100000x128 .f32) (e : IVec S2x1600000 32) : FVec Ideal S100000x128 .f32 :=
  Host.scatterAdd (F := Ideal) scatter_S100000x128_S1600000x1_S1600000x128_1_0_0_1 (val_main_v11 (F := Ideal)) (val_main_v12 (F := Ideal) e)
    (Host.gather gather_S100000x128_S1600000x1_S1600000x128_1_0_n_n_0_1_1128 h (val_main_v9 (F := Ideal) e))

variable (x0 : FVec Ideal S100000x128 .f32) (x1 : IVec S2x1600000 32) (x2 x3 : FVec Ideal S128x128 .f32) (x4 : FVec Ideal S128 .f32)
  (x5 x6 : FVec Ideal S128x64 .f32) (x7 : FVec Ideal S64 .f32)

/-- The first layer's neighbour sums are `agg` of the input features. -/
theorem v13_eq : val_main_v13 (F := Ideal) x0 x1 = agg x0 x1 := rfl
/-- The second layer's neighbour sums are `agg` of the first layer's output. -/
theorem v39_eq : val_main_v39 (F := Ideal) x0 x1 x2 x3 x4 = agg (val_main_v29 (F := Ideal) x0 x1 x2 x3 x4) x1 := rfl
/-- The in-degree is computed twice, the same way. -/
theorem v43_eq : val_main_v43 (F := Ideal) x1 = val_main_v17 (F := Ideal) x1 := rfl

/-- The left operand's index of either product of the first layer, at row `p` and summation index `k`. -/
theorem lidx23_ix2 (p : Fin 100000) (q k : Fin 128) : lidx_main_v23 (ix2 p q) k = ix2 p k :=
  funext fun a => Fin.ext (by match a with | ⟨0, _⟩ => rfl | ⟨1, _⟩ => rfl)
/-- The right operand's index of either product of the first layer, at summation index `k` and column `q`. -/
theorem ridx23_ix2 (p : Fin 100000) (q k : Fin 128) : ridx_main_v23 (ix2 p q) k = ix2 k q :=
  funext fun a => Fin.ext (by match a with | ⟨0, _⟩ => rfl | ⟨1, _⟩ => rfl)
theorem lidx24_ix2 (p : Fin 100000) (q k : Fin 128) : lidx_main_v24 (ix2 p q) k = ix2 p k :=
  funext fun a => Fin.ext (by match a with | ⟨0, _⟩ => rfl | ⟨1, _⟩ => rfl)
theorem ridx24_ix2 (p : Fin 100000) (q k : Fin 128) : ridx_main_v24 (ix2 p q) k = ix2 k q :=
  funext fun a => Fin.ext (by match a with | ⟨0, _⟩ => rfl | ⟨1, _⟩ => rfl)
/-- The bias, spread over the rows, is read at the column alone. -/
theorem bias1_ix2 (p : Fin 100000) (q : Fin 128) : idx_main_v26 (idx_main_v27 (ix2 p q)) = ix1 q :=
  funext fun a => Fin.ext (by match a with | ⟨0, _⟩ => rfl)
/-- The clamped in-degree, spread over the columns, is read at the row alone. -/
theorem deg1_ix2 (p : Fin 100000) (k : Fin 128) : idx_main_v20 (idx_main_v21 (ix2 p k)) = ix1 p :=
  funext fun a => Fin.ext (by match a with | ⟨0, _⟩ => rfl)

/-- The first layer's quotient at `(p, k)`: the neighbour sum over the row's in-degree clamped below by one. -/
theorem v22_ix2 (p : Fin 100000) (k : Fin 128) :
    val_main_v22 (F := Ideal) x0 x1 (ix2 p k)
      = Ideal.div (agg x0 x1 (ix2 p k)) (max (val_main_v17 (F := Ideal) x1 (ix1 p)) Cert.Sage.one) := by
  rw [val_main_v22_apply, val_main_v21_apply, val_main_v20_apply, val_main_v19_apply, val_main_v18_apply,
    val_main_cst_3_apply, v13_eq, deg1_ix2, Ideal.hostDivf_def, Ideal.maximumf_def, Ideal.ofBits_def]

/-- THE FIRST LAYER: the reference's hidden features are `reluR` of the neighbour sums, the in-degree, the features,
    the first layer's weights and bias. -/
theorem h_eq : val_main_v29 (F := Ideal) x0 x1 x2 x3 x4
    = Cert.Sage.reluR (agg x0 x1) (val_main_v17 (F := Ideal) x1) x0 x2 x3 x4 := by
  funext i
  obtain ⟨p, q, rfl⟩ : ∃ (p : Fin 100000) (q : Fin 128), i = ix2 p q := ⟨i 0, i 1, eq_ix2 i⟩
  rw [Cert.Sage.reluR_ix2]
  unfold Cert.Sage.preRAt
  rw [val_main_v29_apply, val_main_v28_apply, val_main_v25_apply, val_main_v23_apply, val_main_v24_apply,
    val_main_v27_apply, val_main_v26_apply, val_main_call0_v0_apply, val_main_call0_cst_apply, bias1_ix2,
    Ideal.maximumf_def, Ideal.addf_def, Ideal.addf_def, Ideal.ofBits_def]
  simp only [lidx23_ix2, ridx23_ix2, lidx24_ix2, ridx24_ix2, v22_ix2]

/-- The left operand's index of either product of the second layer, at row `p` and summation index `k`. -/
theorem lidx49_ix2 (p : Fin 100000) (q : Fin 64) (k : Fin 128) : lidx_main_v49 (ix2 p q) k = ix2 p k :=
  funext fun a => Fin.ext (by match a with | ⟨0, _⟩ => rfl | ⟨1, _⟩ => rfl)
/-- The right operand's index of either product of the second layer, at summation index `k` and column `q`. -/
theorem ridx49_ix2 (p : Fin 100000) (q : Fin 64) (k : Fin 128) : ridx_main_v49 (ix2 p q) k = ix2 k q :=
  funext fun a => Fin.ext (by match a with | ⟨0, _⟩ => rfl | ⟨1, _⟩ => rfl)
theorem lidx50_ix2 (p : Fin 100000) (q : Fin 64) (k : Fin 128) : lidx_main_v50 (ix2 p q) k = ix2 p k :=
  funext fun a => Fin.ext (by match a with | ⟨0, _⟩ => rfl | ⟨1, _⟩ => rfl)
theorem ridx50_ix2 (p : Fin 100000) (q : Fin 64) (k : Fin 128) : ridx_main_v50 (ix2 p q) k = ix2 k q :=
  funext fun a => Fin.ext (by match a with | ⟨0, _⟩ => rfl | ⟨1, _⟩ => rfl)
/-- The second bias, spread over the rows, is read at the column alone. -/
theorem bias2_ix2 (p : Fin 100000) (q : Fin 64) : idx_main_v52 (idx_main_v53 (ix2 p q)) = ix1 q :=
  funext fun a => Fin.ext (by match a with | ⟨0, _⟩ => rfl)
/-- The second copy of the clamped in-degree, spread over the columns, is read at the row alone. -/
theorem deg2_ix2 (p : Fin 100000) (k : Fin 128) : idx_main_v46 (idx_main_v47 (ix2 p k)) = ix1 p :=
  funext fun a => Fin.ext (by match a with | ⟨0, _⟩ => rfl)

/-- The second layer's quotient at `(p, k)`: the hidden features' neighbour sum over the same clamped in-degree. -/
theorem v48_ix2 (p : Fin 100000) (k : Fin 128) :
    val_main_v48 (F := Ideal) x0 x1 x2 x3 x4 (ix2 p k)
      = Ideal.div (agg (val_main_v29 (F := Ideal) x0 x1 x2 x3 x4) x1 (ix2 p k))
          (max (val_main_v17 (F := Ideal) x1 (ix1 p)) Cert.Sage.one) := by
  rw [val_main_v48_apply, val_main_v47_apply, val_main_v46_apply, val_main_v45_apply, val_main_v44_apply,
    val_main_cst_9_apply, v39_eq, v43_eq, deg2_ix2, Ideal.hostDivf_def, Ideal.maximumf_def, Ideal.ofBits_def]

/-- THE SECOND LAYER: the reference's result is `preR` of the hidden features' neighbour sums, the in-degree, the hidden
    features, the second layer's weights and bias. -/
theorem out_eq : val_main_v54 (F := Ideal) x0 x1 x2 x3 x4 x5 x6 x7
    = Cert.Sage.preR (agg (val_main_v29 (F := Ideal) x0 x1 x2 x3 x4) x1) (val_main_v17 (F := Ideal) x1)
        (val_main_v29 (F := Ideal) x0 x1 x2 x3 x4) x5 x6 x7 := by
  funext i
  obtain ⟨p, q, rfl⟩ : ∃ (p : Fin 100000) (q : Fin 64), i = ix2 p q := ⟨i 0, i 1, eq_ix2 i⟩
  rw [Cert.Sage.preR_ix2]
  unfold Cert.Sage.preRAt
  rw [val_main_v54_apply, val_main_v51_apply, val_main_v49_apply, val_main_v50_apply, val_main_v53_apply,
    val_main_v52_apply, bias2_ix2, Ideal.addf_def, Ideal.addf_def]
  simp only [lidx49_ix2, ridx49_ix2, lidx50_ix2, ridx50_ix2, v48_ix2]

end Cert.ReferenceIdeal.RefVal

end
-- ==== Proof.Bridge.lean ====
/-
  The two arrangements of a SAGE layer agree on real arrays, and a layer of real arrays is real.

  For real numbers `aₖ`, `wₖ` and a real `c`, with `γ = max c 1 ≥ 1`:
      (∑ₖ aₖ wₖ) · (1 / γ) = ∑ₖ (aₖ / γ) · wₖ
  in ℝ by distributivity. On the extended reals every operation involved answers the coercion of the real one
  when its operands are real (the divisor `γ` being nonzero), so the identity transfers. Nothing is asked of the
  features, the right weights or the bias: those terms are the same on both sides.
-/
import proofs.«160734_j12781822673112_1_alg».proof.Proof.Spec
import proofs.«160734_j12781822673112_1_alg».proof.Proof.LibRealArr
import Mathlib.Tactic.FieldSimp
import Mathlib.Tactic.Ring
import Mathlib.Algebra.BigOperators.Ring.Finset

noncomputable section

namespace Cert.Sage

open Idealize.ShloMosaic Idealize.ShloMosaic.ValueIdx Cert.Val Cert.Lib.ERealArith
open scoped BigOperators

variable {n d e : ℕ}

/-- The literal `1.0` is the real one. -/
theorem one_eq : one = ((1 : ℝ) : EReal) := ofBits_one
/-- The literal `0.0` is the real zero. -/
theorem zero_eq : zero = ((0 : ℝ) : EReal) := ofBits_zero

/-- The clamped count `max c 1` of a real `c` is a positive real. -/
theorem clamp_pos {c : EReal} (hc : IsReal c) : ∃ r : ℝ, max c one = (r : EReal) ∧ 0 < r :=
  max_pos_real_right hc ofBits_one_pos

/-- THE LAW: a row's scalar `1 / max c 1` crosses the sum over the contracted index. -/
theorem scale_sum (a w : Fin d → EReal) (c : EReal) (ha : ∀ k, IsReal (a k)) (hw : ∀ k, IsReal (w k)) (hc : IsReal c) :
    (∑ k : Fin d, a k * w k) * Ideal.div one (max c one) = ∑ k : Fin d, Ideal.div (a k) (max c one) * w k := by
  obtain ⟨γ, hγ, hpos⟩ := clamp_pos hc
  have hne : γ ≠ 0 := hpos.ne'
  choose ar har using ha
  choose wr hwr using hw
  rw [hγ, one_eq, div_coe hne]
  have hl : ∀ k : Fin d, a k * w k = ((ar k * wr k : ℝ) : EReal) := fun k => by rw [har k, hwr k, mul_coe]
  have hr : ∀ k : Fin d, Ideal.div (a k) (γ : EReal) * w k = ((ar k / γ * wr k : ℝ) : EReal) := fun k => by
    rw [har k, hwr k, div_coe hne, mul_coe]
  rw [Finset.sum_congr rfl fun k _ => hl k, Finset.sum_congr rfl fun k _ => hr k, univ_sum_coe, univ_sum_coe, mul_coe]
  refine congrArg _ ?_
  rw [Finset.sum_mul]
  refine Finset.sum_congr rfl fun k _ => ?_
  field_simp

/-- The two arrangements agree at an entry: the count column against the count vector, the bias row against the bias
    vector, the neighbour sums, the count and the left weights real. -/
theorem preKAt_eq_preRAt (A : Mat n d) (C2 : Mat n 1) (C : Vct n) (X : Mat n d) (Wl Wr : Mat d e) (B2 : Mat 1 e) (b : Vct e)
    (p : Fin n) (q : Fin e) (hC : C2 (ix2 p 0) = C (ix1 p)) (hB : B2 (ix2 0 q) = b (ix1 q))
    (hA : IsRealArr A) (hCr : IsRealArr C) (hW : IsRealArr Wl) :
    preKAt A C2 X Wl Wr B2 p q = preRAt A C X Wl Wr b p q := by
  have h := scale_sum (fun k : Fin d => A (ix2 p k)) (fun k : Fin d => Wl (ix2 k q)) (C (ix1 p))
    (fun k => hA _) (fun k => hW _) (hCr _)
  unfold preKAt preRAt
  rw [hC, hB]
  exact congrArg (fun z => z + (∑ k : Fin d, X (ix2 p k) * Wr (ix2 k q)) + b (ix1 q)) h

/-- The second layer: the kernel's arrangement is the reference's. -/
theorem preK_eq_preR (A : Mat n d) (C2 : Mat n 1) (C : Vct n) (X : Mat n d) (Wl Wr : Mat d e) (B2 : Mat 1 e) (b : Vct e)
    (hC : ∀ p : Fin n, C2 (ix2 p 0) = C (ix1 p)) (hB : ∀ q : Fin e, B2 (ix2 0 q) = b (ix1 q))
    (hA : IsRealArr A) (hCr : IsRealArr C) (hW : IsRealArr Wl) :
    preK A C2 X Wl Wr B2 = preR A C X Wl Wr b :=
  funext fun i => preKAt_eq_preRAt A C2 C X Wl Wr B2 b (i 0) (i 1) (hC _) (hB _) hA hCr hW

/-- The first layer: the kernel's arrangement is the reference's. -/
theorem reluK_eq_reluR (A : Mat n d) (C2 : Mat n 1) (C : Vct n) (X : Mat n d) (Wl Wr : Mat d e) (B2 : Mat 1 e) (b : Vct e)
    (hC : ∀ p : Fin n, C2 (ix2 p 0) = C (ix1 p)) (hB : ∀ q : Fin e, B2 (ix2 0 q) = b (ix1 q))
    (hA : IsRealArr A) (hCr : IsRealArr C) (hW : IsRealArr Wl) :
    reluK A C2 X Wl Wr B2 = reluR A C X Wl Wr b :=
  funext fun i => congrArg (fun z => max z zero) (preKAt_eq_preRAt A C2 C X Wl Wr B2 b (i 0) (i 1) (hC _) (hB _) hA hCr hW)

/-- An entry of a layer of real arrays is real. -/
theorem isReal_preRAt (A : Mat n d) (C : Vct n) (X : Mat n d) (Wl Wr : Mat d e) (b : Vct e) (p : Fin n) (q : Fin e)
    (hA : IsRealArr A) (hC : IsRealArr C) (hX : IsRealArr X) (hWl : IsRealArr Wl) (hWr : IsRealArr Wr) (hb : IsRealArr b) :
    IsReal (preRAt A C X Wl Wr b p q) := by
  unfold preRAt
  exact IsReal.add (IsReal.add
    (IsReal.sum _ _ fun k _ => IsReal.mul (IsReal.div (hA _) (ne_zero_of_pos_real (clamp_pos (hC _)))) (hWl _))
    (IsReal.sum _ _ fun k _ => IsReal.mul (hX _) (hWr _))) (hb _)

/-- The first layer of real arrays is a real array. -/
theorem isRealArr_reluR (A : Mat n d) (C : Vct n) (X : Mat n d) (Wl Wr : Mat d e) (b : Vct e)
    (hA : IsRealArr A) (hC : IsRealArr C) (hX : IsRealArr X) (hWl : IsRealArr Wl) (hWr : IsRealArr Wr) (hb : IsRealArr b) :
    IsRealArr (reluR A C X Wl Wr b) := fun i =>
  IsReal.max (isReal_preRAt A C X Wl Wr b (i 0) (i 1) hA hC hX hWl hWr hb) ⟨0, zero_eq⟩

end Cert.Sage

end
-- ==== Proof.LibRowSpread.lean ====
/-
  A vector spread over the rows of a matrix, read at an entry (general in the sizes and the element type).

  A vector `[n]` recast as the one-row matrix `[1, n]` keeps its entries (`asRow_apply`), and the one-row matrix
  broadcast to `[m, n]` has that row in every row (`spreadRows_apply`); together, the entry `(p, q)` of the
  spread vector is the vector's entry `q` (`spread_asRow_apply`). This is what adding a per-column bias to every row
  of a matrix prints in a kernel.
-/
import Idealize.ShloMosaic.Lib.ValueIdx
import Idealize.ShloMosaic.Lib.Pipeline.Value

namespace Cert.Lib.RowSpread

open Idealize.ShloMosaic Idealize.ShloMosaic.ValueIdx

variable {m n : ℕ} {α : Type}

/-- The vector as a one-row matrix: the entry `(0, q)` is the vector's entry `q`. -/
theorem asRow_apply (v : (⟨1, ![n]⟩ : Shape).Idx → α) (h : (⟨1, ![n]⟩ : Shape).ShapeCasts (⟨2, ![1, n]⟩ : Shape))
    (z : Fin 1) (q : Fin n) : shapeCast (⟨2, ![1, n]⟩ : Shape) v h (ix2 z q) = v (ix1 q) := by
  refine shapeCast_apply v h _ _ ?_
  rw [Shape.rowMajor_val_one, Shape.rowMajor_val_two]
  obtain rfl : z = 0 := Subsingleton.elim _ _
  show q.val = 0 * n + q.val
  rw [Nat.zero_mul, Nat.zero_add]

/-- The one-row matrix broadcast down `m` rows: the entry `(p, q)` is the row's entry `q`. -/
theorem spreadRows_apply (x : (⟨2, ![1, n]⟩ : Shape).Idx → α) (h : (⟨2, ![1, n]⟩ : Shape).Broadcasts (⟨2, ![m, n]⟩ : Shape))
    (p : Fin m) (q : Fin n) : broadcastTo (⟨2, ![m, n]⟩ : Shape) x h (ix2 p q) = x (ix2 (0 : Fin 1) q) := by
  refine broadcastTo_apply x h _ _ fun a => ?_
  match a with
  | ⟨0, _⟩ => exact (if_pos rfl).symm
  | ⟨1, _⟩ =>
    show q.val = if n = 1 then 0 else q.val
    by_cases hn : n = 1
    · rw [if_pos hn]; have := q.isLt; omega
    · rw [if_neg hn]

/-- The vector spread over the rows: the entry `(p, q)` is the vector's entry `q`. -/
theorem spread_asRow_apply (v : (⟨1, ![n]⟩ : Shape).Idx → α) (h : (⟨1, ![n]⟩ : Shape).ShapeCasts (⟨2, ![1, n]⟩ : Shape))
    (hb : (⟨2, ![1, n]⟩ : Shape).Broadcasts (⟨2, ![m, n]⟩ : Shape)) (p : Fin m) (q : Fin n) :
    broadcastTo (⟨2, ![m, n]⟩ : Shape) (shapeCast (⟨2, ![1, n]⟩ : Shape) v h) hb (ix2 p q) = v (ix1 q) :=
  (spreadRows_apply _ hb p q).trans (asRow_apply v h 0 q)

end Cert.Lib.RowSpread
-- ==== Proof.Assemble.lean ====
/-
  The kernel program's result and the reference's are one function of the arguments.

  Both programs compute, from the features `x0`, the edge list `e`, two pairs of weight matrices and two biases,
      hid = max (layer₁ (agg x0) (deg) x0) 0,      out = layer₂ (agg hid) (deg) hid,
  with `agg` the neighbour sums and `deg` the in-degree, the SAME gather and scatters in both programs. They differ
  only in how a layer is arranged: the kernel multiplies the product with the left weights by `1 / max deg 1` row by row,
  the reference divides the neighbour sums by `max deg 1` before the product. On real arrays the two arrangements
  agree (`Cert.Sage.reluK_eq_reluR`, `preK_eq_preR`); every array met is real because the float inputs are, the
  in-degree is a sum of ones, and gathers, accumulating scatters, sums of products, quotients by a positive real and
  maxima of reals are real. So the first layers agree, hence their outputs feed equal arrays to the second.
-/
import proofs.«160734_j12781822673112_1_alg».proof.Proof.RunValue
import proofs.«160734_j12781822673112_1_alg».proof.Proof.KHost
import proofs.«160734_j12781822673112_1_alg».proof.Proof.KValue0
import proofs.«160734_j12781822673112_1_alg».proof.Proof.KValue1
import proofs.«160734_j12781822673112_1_alg».proof.Proof.RefValue
import proofs.«160734_j12781822673112_1_alg».proof.Proof.Bridge
import proofs.«160734_j12781822673112_1_alg».proof.Proof.LibColumn
import proofs.«160734_j12781822673112_1_alg».proof.Proof.LibRowSpread

set_option maxRecDepth 16384

noncomputable section

namespace Cert.Proof.Value

open Idealize.ShloMosaic Idealize.ShloMosaic.TcCoe Idealize.ShloMosaic.ValueIdx Idealize.SL.Sem Cert.Val Cert.Sage
open Cert.KernelIdeal Cert.KernelIdeal.Gen Cert.KernelIdeal.KHost

/-! ## The two programs name the same gather and scatters -/

/-- The reference's neighbour sums are the kernel program's. -/
theorem agg_eq (h : FVec Ideal S100000x128 .f32) (e : IVec S2x1600000 32) :
    Cert.ReferenceIdeal.RefVal.agg h e = aggOf h (row0 e) (row1 e) := rfl
/-- The reference's in-degree is the kernel program's. -/
theorem cnt_eq (e : IVec S2x1600000 32) : Cert.ReferenceIdeal.Read.val_main_v17 (F := Ideal) e = cntOf (row1 e) := rfl

/-! ## Real arrays -/

/-- Neighbour sums of a real array are real: each is zero plus a sum of its entries. -/
theorem isRealArr_aggOf (h : FVec Ideal S100000x128 .f32) (r0 r1 : IVec S1600000 32) (hh : IsRealArr h) : IsRealArr (aggOf h r0 r1) := by
  unfold aggOf
  exact isRealArr_scatterAdd _ _ (isRealArr_broadcastInDim _ _ isRealArr_constant_zero) (isRealArr_gather _ _ hh)
/-- The in-degree is real: zero plus a sum of ones. -/
theorem isRealArr_cntOf (r1 : IVec S1600000 32) : IsRealArr (cntOf r1) := by
  unfold cntOf
  exact isRealArr_scatterAdd _ _ (isRealArr_broadcastInDim _ _ isRealArr_constant_zero)
    (isRealArr_broadcastInDim _ _ (isRealArr_of_pos constant_one_pos))

/-! ## The common function -/

/-- The hidden features: the first layer, in the reference's arrangement. -/
def hid (x0 : FVec Ideal S100000x128 .f32) (e : IVec S2x1600000 32) (x2 x3 : FVec Ideal S128x128 .f32) (x4 : FVec Ideal S128 .f32) :
    FVec Ideal S100000x128 .f32 :=
  reluR (aggOf x0 (row0 e) (row1 e)) (cntOf (row1 e)) x0 x2 x3 x4
/-- The result: the second layer over the hidden features, in the reference's arrangement. -/
def out (x0 : FVec Ideal S100000x128 .f32) (e : IVec S2x1600000 32) (x2 x3 : FVec Ideal S128x128 .f32) (x4 : FVec Ideal S128 .f32)
    (x5 x6 : FVec Ideal S128x64 .f32) (x7 : FVec Ideal S64 .f32) : FVec Ideal S100000x64 .f32 :=
  preR (aggOf (hid x0 e x2 x3 x4) (row0 e) (row1 e)) (cntOf (row1 e)) (hid x0 e x2 x3 x4) x5 x6 x7

/-- The hidden features of real inputs are real. -/
theorem isRealArr_hid (x0 : FVec Ideal S100000x128 .f32) (e : IVec S2x1600000 32) (x2 x3 : FVec Ideal S128x128 .f32) (x4 : FVec Ideal S128 .f32)
    (h0 : IsRealArr x0) (h2 : IsRealArr x2) (h3 : IsRealArr x3) (h4 : IsRealArr x4) : IsRealArr (hid x0 e x2 x3 x4) :=
  isRealArr_reluR _ _ _ _ _ _ (isRealArr_aggOf _ _ _ h0) (isRealArr_cntOf _) h0 h2 h3 h4

/-! ## The kernel program's result -/

variable (m : (ℓ : Loc nD τ sig) → Buf (Elt Ideal) ℓ) (ρ : Dev nD → PrngReg)

/-- The first call's output array is the hidden features of the launch memory's arguments. -/
theorem hidden_value (c : Dev nD) (h0 : IsRealArr (m ((c : Thread nD τ).loc main_arg0))) (h2 : IsRealArr (m ((c : Thread nD τ).loc main_arg2))) :
    (dat0 (F := Ideal) (V1 m ρ) c).arrAt 6 cfg0.N
      = hid (m ((c : Thread nD τ).loc main_arg0)) (m ((c : Thread nD τ).loc main_arg1)) (m ((c : Thread nD τ).loc main_arg2))
          (m ((c : Thread nD τ).loc main_arg3)) (m ((c : Thread nD τ).loc main_arg4)) := by
  rw [Cert.KernelIdeal.KVal0.final0 (V1 m ρ) c, V1_v13, V1_v18, V1_arg0, V1_arg2, V1_arg3, V1_v19]
  exact reluK_eq_reluR _ _ _ _ _ _ _ _
    (fun p => Idealize.ShloMosaic.ValueLayout.shapeCast_a_a1_apply _ _ p 0)
    (fun q => Cert.Lib.RowSpread.asRow_apply _ _ 0 q)
    (isRealArr_aggOf _ _ _ h0) (isRealArr_cntOf _) h2

/-- THE KERNEL PROGRAM'S RESULT: the second call's output array is `out` of the launch memory's arguments. -/
theorem kernel_value (c : Dev nD) (h0 : IsRealArr (m ((c : Thread nD τ).loc main_arg0))) (h2 : IsRealArr (m ((c : Thread nD τ).loc main_arg2)))
    (h3 : IsRealArr (m ((c : Thread nD τ).loc main_arg3))) (h4 : IsRealArr (m ((c : Thread nD τ).loc main_arg4)))
    (h5 : IsRealArr (m ((c : Thread nD τ).loc main_arg5))) :
    (dat1 (F := Ideal) (V3 m ρ) c).arrAt 6 cfg1.N
      = out (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) := by
  rw [Cert.KernelIdeal.KVal1.final1 (V3 m ρ) c, V3_v30, V3_v31, V3_v20, V3_arg5, V3_arg6, V3_v32, W2_v20, W2_v1, W2_v3, W2_v17,
    W2_arg5, W2_arg6, W2_arg7, hidden_value m ρ c h0 h2]
  exact preK_eq_preR _ _ _ _ _ _ _ _
    (fun p => Idealize.ShloMosaic.ValueLayout.shapeCast_a_a1_apply _ _ p 0)
    (fun q => Cert.Lib.RowSpread.asRow_apply _ _ 0 q)
    (isRealArr_aggOf _ _ _ (isRealArr_hid _ _ _ _ _ h0 h2 h3 h4)) (isRealArr_cntOf _) h5

/-! ## The reference's result -/

/-- THE REFERENCE'S RESULT: its run's term is `out` of its launch memory's arguments. -/
theorem reference_value (m' : (ℓ : Loc Cert.ReferenceIdeal.nD Cert.ReferenceIdeal.τ Cert.ReferenceIdeal.sig) → Buf (Elt Ideal) ℓ)
    (c : Dev Cert.ReferenceIdeal.nD) :
    Cert.ReferenceIdeal.Value.res_main_v54 (F := Ideal) m' c
      = out (m' ((c.tc : Thread Cert.ReferenceIdeal.nD Cert.ReferenceIdeal.τ).loc Cert.ReferenceIdeal.main_arg0))
          (m' ((c.tc : Thread Cert.ReferenceIdeal.nD Cert.ReferenceIdeal.τ).loc Cert.ReferenceIdeal.main_arg1))
          (m' ((c.tc : Thread Cert.ReferenceIdeal.nD Cert.ReferenceIdeal.τ).loc Cert.ReferenceIdeal.main_arg2))
          (m' ((c.tc : Thread Cert.ReferenceIdeal.nD Cert.ReferenceIdeal.τ).loc Cert.ReferenceIdeal.main_arg3))
          (m' ((c.tc : Thread Cert.ReferenceIdeal.nD Cert.ReferenceIdeal.τ).loc Cert.ReferenceIdeal.main_arg4))
          (m' ((c.tc : Thread Cert.ReferenceIdeal.nD Cert.ReferenceIdeal.τ).loc Cert.ReferenceIdeal.main_arg5))
          (m' ((c.tc : Thread Cert.ReferenceIdeal.nD Cert.ReferenceIdeal.τ).loc Cert.ReferenceIdeal.main_arg6))
          (m' ((c.tc : Thread Cert.ReferenceIdeal.nD Cert.ReferenceIdeal.τ).loc Cert.ReferenceIdeal.main_arg7)) := by
  rw [Cert.ReferenceIdeal.Read.val_main_v54_eq, Cert.ReferenceIdeal.RefVal.out_eq, Cert.ReferenceIdeal.RefVal.h_eq]
  rfl

end Cert.Proof.Value

end
-- ==== Proof.Finite.lean ====
/-
  The precondition says every float input is finite; read at the extended reals, that every entry of the seven float
  arrays is a real number.

  The printed predicate is a conjunction, one conjunct per float array: "every entry's absolute value is below +∞",
  an `and`-reduction over the array of the entrywise comparison. An extended real whose absolute value is below +∞ is
  neither infinity, so it is (the coercion of) a real number.
-/
import proofs.«160734_j12781822673112_1_alg».proof.Proof.Gen.Pre_finite_inputs
import proofs.«160734_j12781822673112_1_alg».proof.Proof.LibRealArr
import Idealize.ShloMosaic.Lib.ReduceAll
import Idealize.ShloMosaic.Lib.ValueIdx

noncomputable section

namespace Cert.Pre_finite_inputs.Finite

open Cert.Pre_finite_inputs Idealize.ShloMosaic Idealize.ShloMosaic.ValueIdx Cert.Val

/-- The f32 pattern with exponent field all ones, fraction zero and sign clear denotes +∞. -/
theorem ofBits_inf : Ideal.ofBits .f32 0x7F800000#32 = (⊤ : EReal) := by
  simp [Ideal.ofBits, Ideal.ieee]

/-- The one-bit word of a Boolean is 1 exactly when the Boolean is true. -/
theorem ofBool_eq_one {b : Bool} : BitVec.ofBool b = 1#1 ↔ b = true := by cases b <;> decide

/-- An extended real `x` with `|x| = max x (-x)` strictly below `⊤` is a real number: at `x = ⊥` the maximum is
    `-⊥ = ⊤`, at `x = ⊤` it is `⊤`, and neither is below `⊤`; what is left is a coercion. -/
theorem real_of_abs_lt_top (x : EReal) (h : max x (-x) < (⊤ : EReal)) : ∃ r : ℝ, x = (r : EReal) := by
  induction x using EReal.rec with
  | bot => simp at h
  | top => simp at h
  | coe r => exact ⟨r, rfl⟩

/-- One conjunct of the predicate, at any shape: if the conjunction over ALL entries of "`|x i| < +∞`" is true, then
    every entry of `x` is real. The conjunction being 1 gives the comparison 1 at each index; there the right operand
    is the scalar +∞ read through the broadcast, i.e. `⊤`, and the left one is `max (x i) (-(x i))`; the comparison
    being 1 is the strict inequality, and the scalar fact above concludes. -/
theorem isRealArr_of_all {s : Shape} {axes : List (Fin s.rank)} (x : FVec Ideal s .f32)
    (hb : S_.BroadcastsInDim s (![] : Fin 0 → Fin s.rank)) (hr : s.ReducesTo axes S_) (hu : 0 < S_.numel) (init : IVec S_ 1)
    (h : Host.reduce IntOp.andi (cmpf .olt (Host.absf x) (broadcastInDim s ![] hb (constant S_ .f32 0x7F800000#32))) init hr hu
      ix0 = 1#1) : IsRealArr x := by
  -- the rank-0 result has exactly one index
  haveI : Subsingleton S_.Idx := ⟨fun a b => funext fun d => d.elim0⟩
  intro i
  have hi := Host.reduce_andi_all _ init hr hu ix0 h i
  rw [cmpf_apply] at hi
  have hc : broadcastInDim s ![] hb (constant (F := Ideal) S_ .f32 0x7F800000#32) i = (⊤ : EReal) := ofBits_inf
  rw [hc] at hi
  have hlt : max (x i) (-(x i)) < (⊤ : EReal) := of_decide_eq_true (ofBool_eq_one.1 hi)
  exact real_of_abs_lt_top _ hlt

/-- A one-bit `and` of two rank-0 arrays is 1 exactly when both are. -/
theorem andi_ix0 (a b : IVec S_ 1) : andi a b ix0 = 1#1 ↔ a ix0 = 1#1 ∧ b ix0 = 1#1 := IntOp.andi_eq_one

/-- Where the precondition holds, each float argument array is real entry by entry. -/
theorem real_of_pre [hP : Cert.Pre_finite_inputs.Facts]
    (a0 : FVec Ideal S100000x128 .f32) (a1 : IVec S2x1600000 32) (a2 a3 : FVec Ideal S128x128 .f32) (a4 : FVec Ideal S128 .f32)
    (a5 a6 : FVec Ideal S128x64 .f32) (a7 : FVec Ideal S64 .f32)
    (h : Cert.Pre_finite_inputs.fn (F := Ideal) a0 a1 a2 a3 a4 a5 a6 a7 = fun _ => 1#1) :
    IsRealArr a0 ∧ IsRealArr a2 ∧ IsRealArr a3 ∧ IsRealArr a4 ∧ IsRealArr a5 ∧ IsRealArr a6 ∧ IsRealArr a7 := by
  -- the predicate's one word is 1; it is the left-nested conjunction of the seven per-array conjunctions
  have h0 := congrFun h ix0
  dsimp only [fn, fn_part1] at h0
  simp only [andi_ix0] at h0
  obtain ⟨⟨⟨⟨⟨⟨e0, e2⟩, e3⟩, e4⟩, e5⟩, e6⟩, e7⟩ := h0
  exact ⟨isRealArr_of_all a0 _ _ _ _ e0, isRealArr_of_all a2 _ _ _ _ e2, isRealArr_of_all a3 _ _ _ _ e3,
    isRealArr_of_all a4 _ _ _ _ e4, isRealArr_of_all a5 _ _ _ _ e5, isRealArr_of_all a6 _ _ _ _ e6,
    isRealArr_of_all a7 _ _ _ _ e7⟩

end Cert.Pre_finite_inputs.Finite

end
-- ==== Proof.lean ====
/-
  The certificate of a two-layer SAGE convolution: a Pallas kernel for each layer's dense part against a plain
  jnp reference.

  Both programs aggregate neighbour features with the same gather and accumulating scatters on the host, count each
  node's in-degree the same way, and then apply, twice, "mean of the neighbours times the left weights, plus the
  features times the right weights, plus the bias" (the first time followed by `max · 0`). The reference divides the
  neighbour sums by `max (in-degree) 1` and then multiplies by the left weights; the kernel multiplies first, in
  blocks of 5000 nodes, and scales each row of the product by `1 / max (in-degree) 1` afterwards. Moving a row's
  scalar across the matrix product is distributivity, which holds on the extended reals once every term is a real
  number; the precondition makes the float inputs real, the in-degree is a sum of ones, and every operation on the
  way keeps real arrays real, so the hidden features agree and the second layer sees equal inputs.

  The frames of the two kernel programs are the generated ones; the reference's frame is its generated run with the
  result dropped; the idealization rewrote nothing, so `preserves` is trivial. For `algebraic` the kernel program is
  run once more with its result buffer named (RunValue), each call's output array is read entry by entry off the
  generated proof data (KValue0, KValue1) and the host stretches before each call are read as functions of the launch
  memory (KHost); the reference's run is read one operation at a time (RefValue); Assemble joins the two.
-/
import proofs.«160734_j12781822673112_1_alg».proof.Defs
import proofs.«160734_j12781822673112_1_alg».proof.Proof.Gen.Kernel
import proofs.«160734_j12781822673112_1_alg».proof.Proof.Gen.Kernel.Frame
import proofs.«160734_j12781822673112_1_alg».proof.Proof.Gen.KernelIdeal
import proofs.«160734_j12781822673112_1_alg».proof.Proof.Gen.KernelIdeal.Frame
import proofs.«160734_j12781822673112_1_alg».proof.Proof.Gen.ReferenceIdeal
import proofs.«160734_j12781822673112_1_alg».proof.Proof.Gen.ReferenceIdeal.Run
import proofs.«160734_j12781822673112_1_alg».proof.Proof.Gen.ReferenceIdeal.Read
import proofs.«160734_j12781822673112_1_alg».proof.Proof.Gen.Pre_finite_inputs
import proofs.«160734_j12781822673112_1_alg».proof.Proof.Assemble
import proofs.«160734_j12781822673112_1_alg».proof.Proof.Finite
import Idealize.ShloMosaic.Adequacy
import Idealize.ShloMosaic.Init

set_option maxRecDepth 16384

noncomputable section

namespace Cert.Proof

open Idealize.ShloMosaic Idealize.SL.Sem

/-- The word-level kernel program terminates without a fault and keeps its arguments: the generated frame. -/
theorem frame_kernel : Cert.frame_Kernel (hKernel := Cert.Kernel.Gen.facts) (hPre_finite_inputs := Cert.Pre_finite_inputs.Gen.facts) :=
  fun m ρ _ => Cert.Kernel.Gen.frame m ρ

/-- So does the idealized kernel program. -/
theorem frame_kernelIdeal :
    Cert.frame_KernelIdeal (hKernelIdeal := Cert.KernelIdeal.Gen.facts) (hPre_finite_inputs := Cert.Pre_finite_inputs.Gen.facts) :=
  fun m ρ _ => Cert.KernelIdeal.Gen.frame m ρ

/-- The reference is host operations only: its run, with the result forgotten. -/
theorem frame_referenceIdeal :
    Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories that agree on the arguments, the float ones finite, both idealized programs end with the same
    result array: `Value.out` of the arguments. -/
theorem algebraic :
    Cert.algebraic_KernelIdeal_ReferenceIdeal (hKernelIdeal := Cert.KernelIdeal.Gen.facts) (hReferenceIdeal := Cert.ReferenceIdeal.Gen.facts)
      (hPre_finite_inputs := Cert.Pre_finite_inputs.Gen.facts) := by
  intro m ρ m' ρ' hpre hagree
  refine ⟨fun c => Value.out
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · refine (θ_run (Cert.KernelIdeal.defs (F := Ideal)) _ _).mono (fun r h c => ?_) (Cert.KernelIdeal.RunValue.run_value (F := Ideal) m ρ)
    obtain ⟨r0, r2, r3, r4, r5, -, -⟩ := Cert.Pre_finite_inputs.Finite.real_of_pre _ _ _ _ _ _ _ _ (hpre c)
    exact ⟨(h c).1.trans (Value.kernel_value m ρ c r0 r2 r3 r4 r5), (h c).2⟩
  · refine (θ_run (Cert.ReferenceIdeal.defs (F := Ideal)) _ _).mono (fun r h c => ⟨?_, (h c).2⟩)
      (Cert.ReferenceIdeal.Value.run (F := Ideal) m' ρ')
    obtain ⟨a0, a1, a2, a3, a4, a5, a6, a7⟩ := hagree c
    rw [(h c).1, Value.reference_value m' c, a0, a1, a2, a3, a4, a5, a6, a7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
